-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x8192 : Shape := ⟨2, ![2, 8192]⟩
abbrev S2x1024x3 : Shape := ⟨3, ![2, 1024, 3]⟩
abbrev S2x512x3 : Shape := ⟨3, ![2, 512, 3]⟩
abbrev S2x1024 : Shape := ⟨2, ![2, 1024]⟩
abbrev S2x1024x1 : Shape := ⟨3, ![2, 1024, 1]⟩
abbrev S2x512 : Shape := ⟨2, ![2, 512]⟩
abbrev S2x1x512 : Shape := ⟨3, ![2, 1, 512]⟩
abbrev S2x1024x512 : Shape := ⟨3, ![2, 1024, 512]⟩
abbrev S_ : Shape := ⟨0, ![]⟩
abbrev S2 : Shape := ⟨1, ![2]⟩

abbrev nBuf : Space → Nat
  | .hbm => 19
  | .vmem => 14
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192, .f32⟩
  | .hbm, ⟨4, _⟩ => ⟨S_, .f32⟩
  | .hbm, ⟨5, _⟩ => ⟨S2, .f32⟩
  | .hbm, ⟨6, _⟩ => ⟨S_, .f32⟩
  | .hbm, ⟨7, _⟩ => ⟨S2, .f32⟩
  | .hbm, ⟨8, _⟩ => ⟨S2, .f32⟩
  | .hbm, ⟨9, _⟩ => ⟨S_, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2x1024x3, .f32⟩
  | .local _ .vmem, ⟨1, _⟩ => ⟨S2x1024x3, .f32⟩
  | .local _ .vmem, ⟨2, _⟩ => ⟨S2x512x3, .f32⟩
  | .local _ .vmem, ⟨3, _⟩ => ⟨S2x512x3, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024x3, .f32⟩
  | .local _ .vmem, ⟨8, _⟩ => ⟨S2x1024x3, .f32⟩
  | .local _ .vmem, ⟨9, _⟩ => ⟨S2x512x3, .f32⟩
  | .local _ .vmem, ⟨10, _⟩ => ⟨S2x512x3, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S2x1024x3_S2x1024x3_0_0_0 : ∀ a, (![0, 0, 0] : Fin 3 → Nat) a + S2x1024x3.size a ≤ S2x1024x3.size a
  h_S2x1024x3 : 0 < S2x1024x3.numel
  inb_S2x512x3_S2x512x3_0_0_0 : ∀ a, (![0, 0, 0] : Fin 3 → Nat) a + S2x512x3.size a ≤ S2x512x3.size a
  h_S2x512x3 : 0 < S2x512x3.numel
  reduces_S2x1024x3_S2x1024 : S2x1024x3.Reduces [2] S2x1024
  shapeCasts_S2x1024_S2x1024x1 : S2x1024.ShapeCasts S2x1024x1
  reduces_S2x512x3_S2x512 : S2x512x3.Reduces [2] S2x512
  shapeCasts_S2x512_S2x1x512 : S2x512.ShapeCasts S2x1x512
  bitsLt_bf16_f32 : FTy.bits .bf16 < FTy.bits .f32
  broadcasts_S2x1024x1_S2x1024x512 : S2x1024x1.Broadcasts S2x1024x512
  broadcasts_S2x1x512_S2x1024x512 : S2x1x512.Broadcasts S2x1024x512
  reduces_S2x1024x512_S2x1024 : S2x1024x512.Reduces [2] S2x1024
  reducesTo_S2x8192_S2_d1 : S2x8192.ReducesTo [1] S2
  h_S_ : 0 < S_.numel
  bcast_S_S2 : S_.BroadcastsInDim S2 (![] : Fin 0 → Fin S2.rank)
  reducesTo_S2_S_d0 : S2.ReducesTo [0] S_
  dot_S2x1024x3_S2x512x3_S2x1024x512_2_2_1_1_0_0_wf : DotDims.WF S2x1024x3 S2x512x3 S2x1024x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x3.size a ≤ S2x8192x3.size a
  hwx0_0 : ∀ i : grid0.Coords, EltTy.bits .f32 = 32 ∨ (Rect.block (s := S2x8192x3) S2x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x3.size a ≤ S2x8192x3.size a
  hwx0_1 : ∀ i : grid0.Coords, EltTy.bits .f32 = 32 ∨ (Rect.block (s := S2x8192x3) S2x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x8192.size a
  hwx0_2 : ∀ i : grid0.Coords, EltTy.bits .f32 = 32 ∨ (Rect.block (s := S2x8192) S2x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024x3.size a ≤ S2x8192x3.size a
  hwx1_0 : ∀ i : grid1.Coords, EltTy.bits .f32 = 32 ∨ (Rect.block (s := S2x8192x3) S2x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x3.size a ≤ S2x8192x3.size a
  hwx1_1 : ∀ i : grid1.Coords, EltTy.bits .f32 = 32 ∨ (Rect.block (s := S2x8192x3) S2x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1024.size a ≤ S2x8192.size a
  hwx1_2 : ∀ i : grid1.Coords, EltTy.bits .f32 = 32 ∨ (Rect.block (s := S2x8192) S2x1024.size (cc1_transform_2 i) (hinb1_2 i)).WholeWords (EltTy.packing .f32)

variable [Facts₀]

def dot_S2x1024x3_S2x512x3_S2x1024x512_2_2_1_1_0_0 : DotDims S2x1024x3 S2x512x3 S2x1024x512 where
  lhsContracting := [2]
  rhsContracting := [2]
  lhsNonContracting := [1]
  rhsNonContracting := [1]
  lhsBatch := [0]
  rhsBatch := [0]
  wf := dot_S2x1024x3_S2x512x3_S2x1024x512_2_2_1_1_0_0_wf

abbrev win0_0 : Pipeline.Window sig grid0 :=
  Pipeline.Window.ofSpec (Memref.whole main_arg1) S2x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x1 : Shape := ⟨3, ![2, 8192, 1]⟩
abbrev S2x1x8192 : Shape := ⟨3, ![2, 1, 8192]⟩
abbrev S2x8192x8192 : Shape := ⟨3, ![2, 8192, 8192]⟩
abbrev S2 : Shape := ⟨1, ![2]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S2x8192x3, .f32⟩
  | .hbm, ⟨7, _⟩ => ⟨S_, .f32⟩
  | .hbm, ⟨8, _⟩ => ⟨S2x8192, .f32⟩
  | .hbm, ⟨9, _⟩ => ⟨S2x1x8192, .f32⟩
  | .hbm, ⟨10, _⟩ => ⟨S2x8192x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S2x8192x8192, .f32⟩
  | .hbm, ⟨22, _⟩ => ⟨S_, .f32⟩
  | .hbm, ⟨23, _⟩ => ⟨S2x8192, .f32⟩
  | .hbm, ⟨24, _⟩ => ⟨S_, .f32⟩
  | .hbm, ⟨25, _⟩ => ⟨S2x8192, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S2_d1 : S2x8192.ReducesTo [1] S2
  bcast_S_S2 : S_.BroadcastsInDim S2 (![] : Fin 0 → Fin S2.rank)
  reducesTo_S2_S_d0 : S2.ReducesTo [0] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.LibWholeStore.lean ====
/-
  Loads and stores through the whole-shape rectangle at zero offsets: a store made last leaves its payload in
  the buffer, whatever was stored before it and whatever the buffer held. Library imports only.
-/
import Idealize.ShloMosaic.Lib.Pipeline.FrameBody
import Idealize.ShloMosaic.Lib.Pipeline.Value

noncomputable section

namespace Cert.Lib.WholeStore

open Idealize.ShloMosaic

/-- The zero offsets of a rank-2 access, however the zeros are spelt. -/
theorem zeros2 : (![0, 0] : Fin 2 → Nat) = fun _ => 0 := by funext a; fin_cases a <;> rfl
/-- The zero offsets of a rank-3 access. -/
theorem zeros3 : (![0, 0, 0] : Fin 3 → Nat) = fun _ => 0 := by funext a; fin_cases a <;> rfl

/-- A store through the whole-shape rectangle, made last, leaves its payload, whatever was stored before
    and whatever the buffer held: the rectangle covers every index, so the earlier pieces are all overwritten. -/
theorem read_after_whole_store {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz]

end Cert.Lib.WholeStore

end
-- ==== Proof.Kernel.Step0.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.LibWholeStore

set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.WholeStore

variable {F : FTy → Type} [FloatOps F]

local notation "𝕄" => MT nD τ sig Unit (Elt F) ℕ (UR sig nD τ) ℕ

/-! # One grid point of the first call's kernel, on any staging memrefs

The body keeps, in its scratch, the running minimum over the key tiles seen so far of the
distances from each query row of the tile to the keys. At the first key tile it first resets
the scratch to +∞; at the last one it also copies the scratch into the output block. So a point
is in one of three cases, told apart by the key-tile coordinate, and in each the body leaves
the scratch at `k0_pay2 q k s` (the minimum of `s` and the tile's row minima), with `s` the
scratch as found — or the +∞ splat `k0_pay1` where the body has just reset it. -/

/-- The key-tile coordinate is 0: the body resets the scratch. -/
abbrev atFirst0 (i : grid0.Coords) : Prop :=
  (Scalar.cmpi .ne (Scalar.extui (Scalar.cmpi .eq (BitVec.ofNat 32 (i 1).val) 0#32)) 0#32) = 1#1
/-- The key-tile coordinate is the last one: the body copies the scratch out. -/
abbrev atLast0 (i : grid0.Coords) : Prop := k0_cond2 i = 1#1

set_option maxHeartbeats 1000000 in
theorem step0_mid (c : Dev nD) (E : Set ℕ) (i : grid0.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst0 i) (hl : ¬ atLast0 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k0_pay2 q k s)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

set_option maxHeartbeats 1000000 in
theorem step0_first (c : Dev nD) (E : Set ℕ) (i : grid0.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : atFirst0 i) (hl : ¬ atLast0 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k0_pay2 q k k0_pay1)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  sl_unfold_words
  simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]

set_option maxHeartbeats 1000000 in
theorem step0_last (c : Dev nD) (E : Set ℕ) (i : grid0.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst0 i) (hl : atLast0 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare (k0_pay2 q k s)
            ∗ owns (c : Thread nD τ) arg5 fullShare (k0_pay2 q k s)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_after_whole_store _ _ zeros2]
    sl_unfold_words
    simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]
  iexists _; isplitr
  swap; · iexact H3
  ipureintro
  sl_unfold_words
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

end Cert.Kernel.RowMin

end
-- ==== Proof.Kernel.Data0.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.Kernel.Step0
set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call as a pipeline: what it holds, point by point

Grid point `t` of the call is query tile `t / 16` against key tile `t % 16`. Over a run of
sixteen points with one query tile the scratch holds the running minimum over the key tiles
seen so far: `acc0` below, reset where `t % 16 = 0`. The output block is stored at the run's
last point only (`t % 16 = 15`), where it receives that minimum; at the other points the output
window is idle and its buffer is handed back as found. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile and the key tile of point `t`, at their literal types. -/
abbrev qblk0 (c : Dev nD) (t : Fin cfg0.N) : Vec F S2x1024x3 .f32 := iblk0 V c 0 t
abbrev kblk0 (c : Dev nD) (t : Fin cfg0.N) : Vec F S2x512x3 .f32 := iblk0 V c 1 t

/-- THE RUNNING MINIMUM: what the scratch holds after point `n`. At the first key tile of a query tile it is
    the tile's row minima against +∞; afterwards the minimum of those and what the point before left. -/
def acc0 (c : Dev nD) : (n : ℕ) → n < cfg0.N → Vec F S2x1024 .f32
  | 0, h => k0_pay2 (qblk0 V c ⟨0, h⟩) (kblk0 V c ⟨0, h⟩) k0_pay1
  | n + 1, h =>
    if (n + 1) % 16 = 0 then k0_pay2 (qblk0 V c ⟨n + 1, h⟩) (kblk0 V c ⟨n + 1, h⟩) k0_pay1
    else k0_pay2 (qblk0 V c ⟨n + 1, h⟩) (kblk0 V c ⟨n + 1, h⟩) (acc0 c n (Nat.lt_of_succ_lt h))

theorem acc0_reset (c : Dev nD) (t : Fin cfg0.N) (h : t.val % 16 = 0) :
    acc0 V c t.val t.isLt = k0_pay2 (qblk0 V c t) (kblk0 V c t) k0_pay1 := by
  obtain ⟨n, hn⟩ := t
  cases n with
  | zero => rfl
  | succ n => exact if_pos h

theorem acc0_step (c : Dev nD) (t : Fin cfg0.N) (h : ¬ t.val % 16 = 0) :
    acc0 V c t.val t.isLt = k0_pay2 (qblk0 V c t) (kblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- The core's scoped buffers that are no staging buffer of this call. -/
abbrev scoped0 : Finset (Ref sig .tc) :=
  (Finset.univ.filter fun b : Ref sig .tc => b.isScoped) \ Finset.univ.image (Pipeline.stageRef spec0)

/-- Those of them that are not this call's scratch, each whole at some contents: the other call's buffers, which
    this call never touches. -/
def others0 (c : Dev nD) : sProp 𝕄 :=
  bigSep (scoped0.erase cc0_scratch0) fun b => iprop(∃ f : Buf (Elt F) ((c.tc : Thread nD τ).loc b), ((c.tc : Thread nD τ).loc b) ↦{fullShare} f)

theorem scratch_mem0 : cc0_scratch0 ∈ scoped0 := by decide

/-- The scoped rest is the scratch and the other scoped buffers. -/
theorem scoped_split0 (c : Dev nD) :
    (Pipeline.scopedRest (Ix := Unit) (Name := ℕ) (U := UR sig nD τ) (Lvl := ℕ) (Val := Elt F) spec0 c : sProp 𝕄)
      = (iprop((∃ f : Buf (Elt F) ((c.tc : Thread nD τ).loc cc0_scratch0), ((c.tc : Thread nD τ).loc cc0_scratch0) ↦{fullShare} f) ∗ others0 (F := F) c) : sProp 𝕄) := by
  unfold Pipeline.scopedRest others0; exact bigSep_erase scratch_mem0

/-- The class's invariant opens into the scratch at some contents, the other scoped buffers and the generator register; -/
theorem open0 (c : Dev nD) :
    (Pipeline.ΦA spec0 c : sProp 𝕄) ⊢ iprop((∃ d, owns (c : Thread nD τ) (Memref.whole cc0_scratch0) fullShare d) ∗ others0 (F := F) c ∗ ∃ r, prngReg c r) := by
  unfold Pipeline.ΦA
  rw [scoped_split0]
  simp only [owns_whole]
  iintro ⟨⟨Hs, Hrest⟩, Hg⟩
  isplitl [Hs]; · iexact Hs
  isplitl [Hrest]; · iexact Hrest
  iexact Hg

/-- and closes from them. -/
theorem close0 (c : Dev nD) :
    (iprop((∃ d, owns (c : Thread nD τ) (Memref.whole cc0_scratch0) fullShare d) ∗ others0 (F := F) c ∗ ∃ r, prngReg c r) : sProp 𝕄) ⊢ Pipeline.ΦA spec0 c := by
  unfold Pipeline.ΦA
  rw [scoped_split0]
  simp only [owns_whole]
  iintro ⟨Hs, Hrest, Hg⟩
  isplitr [Hg]
  · isplitl [Hs]; · iexact Hs
    iexact Hrest
  iexact Hg

/-- The region's invariant before position `n`: at the region's entry the class's (the scratch at anything);
    afterwards the scratch at the running minimum after the point before. -/
def held0 (c : Dev nD) : (n : ℕ) → n ≤ cfg0.N → sProp 𝕄
  | 0, _ => Pipeline.ΦA spec0 c
  | n + 1, hn => iprop(owns (c : Thread nD τ) (Memref.whole cc0_scratch0) fullShare (acc0 V c n hn) ∗ others0 (F := F) c ∗ ∃ r, prngReg c r)

theorem held0_zero (c : Dev nD) (n : ℕ) (h : n ≤ cfg0.N) (hz : n = 0) : held0 V c n h = Pipeline.ΦA spec0 c := by
  subst hz; rfl

theorem held0_succ (c : Dev nD) (n : ℕ) (hn : n < cfg0.N) :
    held0 V c (n + 1) hn = iprop(owns (c : Thread nD τ) (Memref.whole cc0_scratch0) fullShare (acc0 V c n hn) ∗ others0 (F := F) c ∗ ∃ r, prngReg c r) := rfl

theorem held0_pos (c : Dev nD) (n : ℕ) (h : n ≤ cfg0.N) (hz : n ≠ 0) :
    held0 V c n h = iprop(owns (c : Thread nD τ) (Memref.whole cc0_scratch0) fullShare (acc0 V c (n - 1) (by omega)) ∗ others0 (F := F) c ∗ ∃ r, prngReg c r) := by
  cases n with
  | zero => exact absurd rfl hz
  | succ n => rfl

/-! ## The proof data -/

/-- The call's proof data on core `c`: the arrays as the region finds them; after the body each input's buffer at its
    block, the output's at the running minimum (consulted only where the block is stored, at a run's last point);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := held0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem held0_castSucc (c : Dev nD) (t : Fin cfg0.N) :
    (dat0 V c).Φ t.castSucc = held0 V c t.val (Nat.le_of_lt t.isLt) := by
  dsimp only [dat0]; simp only [Fin.coe_castSucc]

/-- Each input's current staging buffer holds its block at every point, fetched there or not: the query tile is
    fetched once per run of sixteen points and its block index does not move within the run. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The schedule: which case a point is in, and where the output window is idle -/

theorem first_iff0 : ∀ t : Fin cfg0.N, atFirst0 (grid0.coords t) ↔ t.val % 16 = 0 :=
  (by decide +kernel : ∀ t : Fin grid0.N, atFirst0 (grid0.coords t) ↔ t.val % 16 = 0)
theorem last_iff0 : ∀ t : Fin cfg0.N, atLast0 (grid0.coords t) ↔ t.val % 16 = 15 :=
  (by decide +kernel : ∀ t : Fin grid0.N, atLast0 (grid0.coords t) ↔ t.val % 16 = 15)
theorem idle_out0 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem live_out0 : ∀ t : Fin cfg0.N, t.val % 16 = 15 → cfg0.idle 2 (grid0.coords t) = false :=
  (by decide +kernel : ∀ t : Fin grid0.N, t.val % 16 = 15 → cfg0.idle 2 (grid0.coords t) = false)
theorem noflush_out0 (t : Fin cfg0.N) (h : ¬ t.val % 16 = 15) : (cfg0.win 2).flush t = false := by
  cases hf : (cfg0.win 2).flush t
  · rfl
  · exact absurd ((flush0_2 t).mp hf) h

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; the key-tile coordinate says which case the point is
    in; the invariant hands the body the scratch at what the point before left (at anything at the region's entry, and
    the body resets it there), and takes it back at this point's running minimum; at a run's last point the output's
    buffer receives that minimum too, elsewhere it goes back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = held0 V c (t.val + 1) t.isLt from rfl, held0_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  have hN : t.val < 128 := lt_of_lt_of_eq t.isLt (show cfg0.N = 128 from N_0)
  by_cases h0 : t.val % 16 = 0
  · -- the first key tile of a query tile: the scratch is reset, whatever it held
    have h15 : ¬ t.val % 16 = 15 := by omega
    rw [Dat.leavesExact_idle (dat0 V c) 2 t (idle_out0 t h15) (noflush_out0 t h15), acc0_reset V c t h0]
    have hscr : (dat0 V c).Φ t.castSucc ⊢ iprop((∃ d, owns (c : Thread nD τ) (Memref.whole cc0_scratch0) fullShare d) ∗ others0 (F := F) c ∗ ∃ r, prngReg c r) := by
      rw [held0_castSucc]
      by_cases hz : t.val = 0
      · rw [held0_zero V c _ _ hz]; exact open0 c
      · rw [held0_pos V c _ _ hz]
        iintro ⟨Hs, Hrest⟩
        isplitl [Hs]; · iexists _; iexact Hs
        iexact Hrest
    iintro ⟨HΦ, Ho, ⟨%d0, H0⟩, ⟨%d1, H1⟩, ⟨%d2, H2⟩⟩
    ihave HΦ' := hscr $$ HΦ
    icases HΦ' with ⟨⟨%s, Hs⟩, Hrest, Hg⟩
    iapply (step0_first c Set.univ (grid0.coords t) _ _ _ _ _ _ _ _ ((first_iff0 t).mpr h0) (fun h => h15 ((last_iff0 t).mp h))
      (qblk0 V c t) (kblk0 V c t) ((dat0 V c).before 2 t d2) s _)
    isplitl [H0]; · iexact H0
    isplitl [H1]; · iexact H1
    isplitl [H2]; · iexact H2
    isplitl [Hs]; · iexact Hs
    iintro ⟨H0, H1, H2, Hs⟩
    isplitl [Hs Hrest Hg]
    · isplitl [Hs]; · iexact Hs
      isplitl [Hrest]; · iexact Hrest
      iexact Hg
    isplitl [Ho]; · iexact Ho
    isplitl [H0]; · iexact H0
    isplitl [H1]; · iexact H1
    iexists _; iexact H2
  · have hz : t.val ≠ 0 := fun e => h0 (by rw [e])
    rw [held0_castSucc, held0_pos V c _ _ hz, acc0_step V c t h0]
    by_cases h15 : t.val % 16 = 15
    · -- the last key tile: the running minimum also goes to the output block
      rw [show (dat0 V c).leavesExact 2 t = owns (c : Thread nD τ) (st0_2 t) fullShare ((dat0 V c).after 2 t) from by
        unfold Dat.leavesExact; rw [live_out0 t h15], after0_2, acc0_step V c t h0]
      iintro ⟨⟨Hs, Hrest, Hg⟩, Ho, ⟨%d0, H0⟩, ⟨%d1, H1⟩, ⟨%d2, H2⟩⟩
      iapply (step0_last c Set.univ (grid0.coords t) _ _ _ _ _ _ _ _ (fun h => h0 ((first_iff0 t).mp h)) ((last_iff0 t).mpr h15)
        (qblk0 V c t) (kblk0 V c t) ((dat0 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexact H2
    · -- a key tile in between
      rw [Dat.leavesExact_idle (dat0 V c) 2 t (idle_out0 t h15) (noflush_out0 t h15)]
      iintro ⟨⟨Hs, Hrest, Hg⟩, Ho, ⟨%d0, H0⟩, ⟨%d1, H1⟩, ⟨%d2, H2⟩⟩
      iapply (step0_mid c Set.univ (grid0.coords t) _ _ _ _ _ _ _ _ (fun h => h0 ((first_iff0 t).mp h)) (fun h => h15 ((last_iff0 t).mp h))
        (qblk0 V c t) (kblk0 V c t) ((dat0 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the kernel is the invariant before the first point; -/
theorem hin0 (c : Dev nD) : Pipeline.ΦA spec0 c ⊢ (dat0 V c).Φ 0 := by
  rw [show (dat0 V c).Φ 0 = held0 V c 0 (Nat.zero_le _) from rfl, held0_zero V c 0 _ rfl]

/-- after the last point the invariant gives it back, the running minimum's name forgotten. -/
theorem hout0 (c : Dev nD) : (dat0 V c).Φ (Fin.last cfg0.N) ⊢ Pipeline.ΦA spec0 c := by
  rw [show (dat0 V c).Φ (Fin.last cfg0.N) = held0 V c (Fin.last cfg0.N).val (Nat.le_of_lt_succ (Fin.last cfg0.N).isLt) from rfl,
    held0_pos V c _ _ (by rw [Fin.val_last]; have : cfg0.N = 128 := N_0; omega)]
  refine .trans ?_ (close0 c)
  iintro ⟨Hs, Hrest⟩
  isplitl [Hs]; · iexists _; iexact Hs
  iexact Hrest

end

end Cert.Kernel.RowMin

end
-- ==== Proof.Kernel.Step1.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.LibWholeStore

set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.WholeStore

variable {F : FTy → Type} [FloatOps F]

local notation "𝕄" => MT nD τ sig Unit (Elt F) ℕ (UR sig nD τ) ℕ

/-! # One grid point of the second call's kernel, on any staging memrefs

The body keeps, in its scratch, the running minimum over the key tiles seen so far of the
distances from each query row of the tile to the keys. At the first key tile it first resets
the scratch to +∞; at the last one it also copies the scratch into the output block. So a point
is in one of three cases, told apart by the key-tile coordinate, and in each the body leaves
the scratch at `k1_pay2 q k s` (the minimum of `s` and the tile's row minima), with `s` the
scratch as found — or the +∞ splat `k1_pay1` where the body has just reset it. -/

/-- The key-tile coordinate is 0: the body resets the scratch. -/
abbrev atFirst1 (i : grid1.Coords) : Prop :=
  (Scalar.cmpi .ne (Scalar.extui (Scalar.cmpi .eq (BitVec.ofNat 32 (i 1).val) 0#32)) 0#32) = 1#1
/-- The key-tile coordinate is the last one: the body copies the scratch out. -/
abbrev atLast1 (i : grid1.Coords) : Prop := k1_cond2 i = 1#1

set_option maxHeartbeats 1000000 in
theorem step1_mid (c : Dev nD) (E : Set ℕ) (i : grid1.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst1 i) (hl : ¬ atLast1 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k1_pay2 q k s)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

set_option maxHeartbeats 1000000 in
theorem step1_first (c : Dev nD) (E : Set ℕ) (i : grid1.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : atFirst1 i) (hl : ¬ atLast1 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k1_pay2 q k k1_pay1)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  sl_unfold_words
  simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]

set_option maxHeartbeats 1000000 in
theorem step1_last (c : Dev nD) (E : Set ℕ) (i : grid1.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst1 i) (hl : atLast1 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare (k1_pay2 q k s)
            ∗ owns (c : Thread nD τ) arg5 fullShare (k1_pay2 q k s)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_after_whole_store _ _ zeros2]
    sl_unfold_words
    simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]
  iexists _; isplitr
  swap; · iexact H3
  ipureintro
  sl_unfold_words
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

end Cert.Kernel.RowMin

end
-- ==== Proof.Kernel.Data1.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.Kernel.Step1
set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call as a pipeline: what it holds, point by point

Grid point `t` of the call is query tile `t / 16` against key tile `t % 16`. Over a run of
sixteen points with one query tile the scratch holds the running minimum over the key tiles
seen so far: `acc1` below, reset where `t % 16 = 0`. The output block is stored at the run's
last point only (`t % 16 = 15`), where it receives that minimum; at the other points the output
window is idle and its buffer is handed back as found. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile and the key tile of point `t`, at their literal types. -/
abbrev qblk1 (c : Dev nD) (t : Fin cfg1.N) : Vec F S2x1024x3 .f32 := iblk1 V c 0 t
abbrev kblk1 (c : Dev nD) (t : Fin cfg1.N) : Vec F S2x512x3 .f32 := iblk1 V c 1 t

/-- THE RUNNING MINIMUM: what the scratch holds after point `n`. At the first key tile of a query tile it is
    the tile's row minima against +∞; afterwards the minimum of those and what the point before left. -/
def acc1 (c : Dev nD) : (n : ℕ) → n < cfg1.N → Vec F S2x1024 .f32
  | 0, h => k1_pay2 (qblk1 V c ⟨0, h⟩) (kblk1 V c ⟨0, h⟩) k1_pay1
  | n + 1, h =>
    if (n + 1) % 16 = 0 then k1_pay2 (qblk1 V c ⟨n + 1, h⟩) (kblk1 V c ⟨n + 1, h⟩) k1_pay1
    else k1_pay2 (qblk1 V c ⟨n + 1, h⟩) (kblk1 V c ⟨n + 1, h⟩) (acc1 c n (Nat.lt_of_succ_lt h))

theorem acc1_reset (c : Dev nD) (t : Fin cfg1.N) (h : t.val % 16 = 0) :
    acc1 V c t.val t.isLt = k1_pay2 (qblk1 V c t) (kblk1 V c t) k1_pay1 := by
  obtain ⟨n, hn⟩ := t
  cases n with
  | zero => rfl
  | succ n => exact if_pos h

theorem acc1_step (c : Dev nD) (t : Fin cfg1.N) (h : ¬ t.val % 16 = 0) :
    acc1 V c t.val t.isLt = k1_pay2 (qblk1 V c t) (kblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- The core's scoped buffers that are no staging buffer of this call. -/
abbrev scoped1 : Finset (Ref sig .tc) :=
  (Finset.univ.filter fun b : Ref sig .tc => b.isScoped) \ Finset.univ.image (Pipeline.stageRef spec1)

/-- Those of them that are not this call's scratch, each whole at some contents: the other call's buffers, which
    this call never touches. -/
def others1 (c : Dev nD) : sProp 𝕄 :=
  bigSep (scoped1.erase cc1_scratch0) fun b => iprop(∃ f : Buf (Elt F) ((c.tc : Thread nD τ).loc b), ((c.tc : Thread nD τ).loc b) ↦{fullShare} f)

theorem scratch_mem1 : cc1_scratch0 ∈ scoped1 := by decide

/-- The scoped rest is the scratch and the other scoped buffers. -/
theorem scoped_split1 (c : Dev nD) :
    (Pipeline.scopedRest (Ix := Unit) (Name := ℕ) (U := UR sig nD τ) (Lvl := ℕ) (Val := Elt F) spec1 c : sProp 𝕄)
      = (iprop((∃ f : Buf (Elt F) ((c.tc : Thread nD τ).loc cc1_scratch0), ((c.tc : Thread nD τ).loc cc1_scratch0) ↦{fullShare} f) ∗ others1 (F := F) c) : sProp 𝕄) := by
  unfold Pipeline.scopedRest others1; exact bigSep_erase scratch_mem1

/-- The class's invariant opens into the scratch at some contents, the other scoped buffers and the generator register; -/
theorem open1 (c : Dev nD) :
    (Pipeline.ΦA spec1 c : sProp 𝕄) ⊢ iprop((∃ d, owns (c : Thread nD τ) (Memref.whole cc1_scratch0) fullShare d) ∗ others1 (F := F) c ∗ ∃ r, prngReg c r) := by
  unfold Pipeline.ΦA
  rw [scoped_split1]
  simp only [owns_whole]
  iintro ⟨⟨Hs, Hrest⟩, Hg⟩
  isplitl [Hs]; · iexact Hs
  isplitl [Hrest]; · iexact Hrest
  iexact Hg

/-- and closes from them. -/
theorem close1 (c : Dev nD) :
    (iprop((∃ d, owns (c : Thread nD τ) (Memref.whole cc1_scratch0) fullShare d) ∗ others1 (F := F) c ∗ ∃ r, prngReg c r) : sProp 𝕄) ⊢ Pipeline.ΦA spec1 c := by
  unfold Pipeline.ΦA
  rw [scoped_split1]
  simp only [owns_whole]
  iintro ⟨Hs, Hrest, Hg⟩
  isplitr [Hg]
  · isplitl [Hs]; · iexact Hs
    iexact Hrest
  iexact Hg

/-- The region's invariant before position `n`: at the region's entry the class's (the scratch at anything);
    afterwards the scratch at the running minimum after the point before. -/
def held1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ others1 (F := F) c ∗ ∃ r, prngReg c r)

theorem held1_zero (c : Dev nD) (n : ℕ) (h : n ≤ cfg1.N) (hz : n = 0) : held1 V c n h = Pipeline.ΦA spec1 c := by
  subst hz; rfl

theorem held1_succ (c : Dev nD) (n : ℕ) (hn : n < cfg1.N) :
    held1 V c (n + 1) hn = iprop(owns (c : Thread nD τ) (Memref.whole cc1_scratch0) fullShare (acc1 V c n hn) ∗ others1 (F := F) c ∗ ∃ r, prngReg c r) := rfl

theorem held1_pos (c : Dev nD) (n : ℕ) (h : n ≤ cfg1.N) (hz : n ≠ 0) :
    held1 V c n h = iprop(owns (c : Thread nD τ) (Memref.whole cc1_scratch0) fullShare (acc1 V c (n - 1) (by omega)) ∗ others1 (F := F) c ∗ ∃ r, prngReg c r) := by
  cases n with
  | zero => exact absurd rfl hz
  | succ n => rfl

/-! ## The proof data -/

/-- The call's proof data on core `c`: the arrays as the region finds them; after the body each input's buffer at its
    block, the output's at the running minimum (consulted only where the block is stored, at a run's last point);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := held1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem held1_castSucc (c : Dev nD) (t : Fin cfg1.N) :
    (dat1 V c).Φ t.castSucc = held1 V c t.val (Nat.le_of_lt t.isLt) := by
  dsimp only [dat1]; simp only [Fin.coe_castSucc]

/-- Each input's current staging buffer holds its block at every point, fetched there or not: the query tile is
    fetched once per run of sixteen points and its block index does not move within the run. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The schedule: which case a point is in, and where the output window is idle -/

theorem first_iff1 : ∀ t : Fin cfg1.N, atFirst1 (grid1.coords t) ↔ t.val % 16 = 0 :=
  (by decide +kernel : ∀ t : Fin grid1.N, atFirst1 (grid1.coords t) ↔ t.val % 16 = 0)
theorem last_iff1 : ∀ t : Fin cfg1.N, atLast1 (grid1.coords t) ↔ t.val % 16 = 15 :=
  (by decide +kernel : ∀ t : Fin grid1.N, atLast1 (grid1.coords t) ↔ t.val % 16 = 15)
theorem idle_out1 : ∀ t : Fin cfg1.N, ¬ t.val % 16 = 15 → cfg1.idle 2 (grid1.coords t) = true :=
  (by decide +kernel : ∀ t : Fin grid1.N, ¬ t.val % 16 = 15 → cfg1.idle 2 (grid1.coords t) = true)
theorem live_out1 : ∀ t : Fin cfg1.N, t.val % 16 = 15 → cfg1.idle 2 (grid1.coords t) = false :=
  (by decide +kernel : ∀ t : Fin grid1.N, t.val % 16 = 15 → cfg1.idle 2 (grid1.coords t) = false)
theorem noflush_out1 (t : Fin cfg1.N) (h : ¬ t.val % 16 = 15) : (cfg1.win 2).flush t = false := by
  cases hf : (cfg1.win 2).flush t
  · rfl
  · exact absurd ((flush1_2 t).mp hf) h

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; the key-tile coordinate says which case the point is
    in; the invariant hands the body the scratch at what the point before left (at anything at the region's entry, and
    the body resets it there), and takes it back at this point's running minimum; at a run's last point the output's
    buffer receives that minimum too, elsewhere it goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = held1 V c (t.val + 1) t.isLt from rfl, held1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  have hN : t.val < 128 := lt_of_lt_of_eq t.isLt (show cfg1.N = 128 from N_1)
  by_cases h0 : t.val % 16 = 0
  · -- the first key tile of a query tile: the scratch is reset, whatever it held
    have h15 : ¬ t.val % 16 = 15 := by omega
    rw [Dat.leavesExact_idle (dat1 V c) 2 t (idle_out1 t h15) (noflush_out1 t h15), acc1_reset V c t h0]
    have hscr : (dat1 V c).Φ t.castSucc ⊢ iprop((∃ d, owns (c : Thread nD τ) (Memref.whole cc1_scratch0) fullShare d) ∗ others1 (F := F) c ∗ ∃ r, prngReg c r) := by
      rw [held1_castSucc]
      by_cases hz : t.val = 0
      · rw [held1_zero V c _ _ hz]; exact open1 c
      · rw [held1_pos V c _ _ hz]
        iintro ⟨Hs, Hrest⟩
        isplitl [Hs]; · iexists _; iexact Hs
        iexact Hrest
    iintro ⟨HΦ, Ho, ⟨%d0, H0⟩, ⟨%d1, H1⟩, ⟨%d2, H2⟩⟩
    ihave HΦ' := hscr $$ HΦ
    icases HΦ' with ⟨⟨%s, Hs⟩, Hrest, Hg⟩
    iapply (step1_first c Set.univ (grid1.coords t) _ _ _ _ _ _ _ _ ((first_iff1 t).mpr h0) (fun h => h15 ((last_iff1 t).mp h))
      (qblk1 V c t) (kblk1 V c t) ((dat1 V c).before 2 t d2) s _)
    isplitl [H0]; · iexact H0
    isplitl [H1]; · iexact H1
    isplitl [H2]; · iexact H2
    isplitl [Hs]; · iexact Hs
    iintro ⟨H0, H1, H2, Hs⟩
    isplitl [Hs Hrest Hg]
    · isplitl [Hs]; · iexact Hs
      isplitl [Hrest]; · iexact Hrest
      iexact Hg
    isplitl [Ho]; · iexact Ho
    isplitl [H0]; · iexact H0
    isplitl [H1]; · iexact H1
    iexists _; iexact H2
  · have hz : t.val ≠ 0 := fun e => h0 (by rw [e])
    rw [held1_castSucc, held1_pos V c _ _ hz, acc1_step V c t h0]
    by_cases h15 : t.val % 16 = 15
    · -- the last key tile: the running minimum also goes to the output block
      rw [show (dat1 V c).leavesExact 2 t = owns (c : Thread nD τ) (st1_2 t) fullShare ((dat1 V c).after 2 t) from by
        unfold Dat.leavesExact; rw [live_out1 t h15], after1_2, acc1_step V c t h0]
      iintro ⟨⟨Hs, Hrest, Hg⟩, Ho, ⟨%d0, H0⟩, ⟨%d1, H1⟩, ⟨%d2, H2⟩⟩
      iapply (step1_last c Set.univ (grid1.coords t) _ _ _ _ _ _ _ _ (fun h => h0 ((first_iff1 t).mp h)) ((last_iff1 t).mpr h15)
        (qblk1 V c t) (kblk1 V c t) ((dat1 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexact H2
    · -- a key tile in between
      rw [Dat.leavesExact_idle (dat1 V c) 2 t (idle_out1 t h15) (noflush_out1 t h15)]
      iintro ⟨⟨Hs, Hrest, Hg⟩, Ho, ⟨%d0, H0⟩, ⟨%d1, H1⟩, ⟨%d2, H2⟩⟩
      iapply (step1_mid c Set.univ (grid1.coords t) _ _ _ _ _ _ _ _ (fun h => h0 ((first_iff1 t).mp h)) (fun h => h15 ((last_iff1 t).mp h))
        (qblk1 V c t) (kblk1 V c t) ((dat1 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point; -/
theorem hin1 (c : Dev nD) : Pipeline.ΦA spec1 c ⊢ (dat1 V c).Φ 0 := by
  rw [show (dat1 V c).Φ 0 = held1 V c 0 (Nat.zero_le _) from rfl, held1_zero V c 0 _ rfl]

/-- after the last point the invariant gives it back, the running minimum's name forgotten. -/
theorem hout1 (c : Dev nD) : (dat1 V c).Φ (Fin.last cfg1.N) ⊢ Pipeline.ΦA spec1 c := by
  rw [show (dat1 V c).Φ (Fin.last cfg1.N) = held1 V c (Fin.last cfg1.N).val (Nat.le_of_lt_succ (Fin.last cfg1.N).isLt) from rfl,
    held1_pos V c _ _ (by rw [Fin.val_last]; have : cfg1.N = 128 := N_1; omega)]
  refine .trans ?_ (close1 c)
  iintro ⟨Hs, Hrest⟩
  isplitl [Hs]; · iexists _; iexact Hs
  iexact Hrest

end

end Cert.Kernel.RowMin

end
-- ==== Proof.Kernel.Between.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.Kernel.Data0
import proofs.«128316_j11218454577160_1_alg».proof.Proof.Kernel.Data1
import Idealize.ShloMosaic.Lib.Pipeline.RegionsLoop
import Idealize.ShloMosaic.Lib.Pipeline.FrameSuffix
set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Between the items of @main: what the buffers hold

@main is the first call (queries the second argument, keys the first, into `main_v0`), the second call (the
other way round, into `main_v1`), and fifteen host operations that average the two outputs. Between these three
items the core holds every unscoped buffer at contents named below: at launch the memory `m`; after a call, the same
but for the call's output array, which holds what its write-backs left; at the end, the host operations applied.
Every weakly fair execution terminates with every unscoped buffer at the last of these. -/

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- The same read at the TensorCore's references: what the first call's proof data take. -/
abbrev R0 : (c : Dev nD) → (b : Ref sig .tc) → Buf (Elt F) ((c : Thread nD τ).loc b) := fun c b => B0 m c b
/-- After the first call: its arrays at what the pipeline leaves, every other buffer as before. -/
def B1 (c : Dev nD) : Valuation τ sig (Elt F) :=
  Pipeline.withArrays spec0 c (B0 m c) fun w => (dat0 (R0 m) c).arrAt w cfg0.N
abbrev R1 : (c : Dev nD) → (b : Ref sig .tc) → Buf (Elt F) ((c : Thread nD τ).loc b) := fun c b => B1 m c b
/-- After the second call. -/
def B2 (c : Dev nD) : Valuation τ sig (Elt F) :=
  Pipeline.withArrays spec1 c (B1 m c) fun w => (dat1 (R1 m) c).arrAt w cfg1.N
abbrev R2 : (c : Dev nD) → (b : Ref sig .tc) → Buf (Elt F) ((c : Thread nD τ).loc b) := fun c b => B2 m c b
/-- At the end: the host operations applied. -/
abbrev B3 (c : Dev nD) : Valuation τ sig (Elt F) := StableHlo.after hostOps2 (B2 m c)

theorem B1_arr (c : Dev nD) (w : Fin cfg0.W) :
    B1 m c (Proc.devRef .tc (Pipeline.arrRef spec0 w)) = (dat0 (R0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
theorem B2_arr (c : Dev nD) (w : Fin cfg1.W) :
    B2 m c (Proc.devRef .tc (Pipeline.arrRef spec1 w)) = (dat1 (R1 m) c).arrAt w cfg1.N := by
  unfold B2; exact Pipeline.withArrays_arr spec1 launch1.win.arr_inj c _ _ w
theorem B2_other (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb

/-! ## The proof data of both calls, and what rides beside the buffers -/

/-- No call has a prefetched table. -/
abbrev adm : (p : Fin 2) → (pcfgs (F := F) p).Adm := fun p => (cfgs p).toPCfg_adm

/-- Each call's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (R0 m) c
  | ⟨1, _⟩ => fun c => dat1 (R1 m) c

/-- No core owes another anything, so no pair carries a level. -/
abbrev noPairs : GSem nD τ sig → Finset Unit := fun _ => ∅
abbrev noLevel : GSem nD τ sig → Unit → ℕ := fun _ _ => 0

/-- Beside the buffers: the generator register at some state, and the core owing nothing. -/
abbrev quiet (c : Dev nD) : sProp 𝕄 :=
  iprop((∃ r, prngReg c r) ∗ ∃ W, owes (c : Thread nD τ) (0 : CellTallies nD τ sig Unit) W)

/-- With no table there is nothing to hold of one. -/
theorem noTables {c : Dev nD} {q : Fin 0 → PosShare TreeShare} {v : (Pipeline.Prefetch.none (sig := sig)).Contents (Elt F)} :
    ⊢ (Pipeline.prefHeld (Ix := Unit) (Name := ℕ) (U := UR sig nD τ) (Lvl := ℕ) Pipeline.Prefetch.none c q v : sProp 𝕄) := by
  unfold Pipeline.prefHeld; rw [show (Finset.univ : Finset (Fin 0)) = ∅ from rfl, BI.bigSep_empty]; iempintro

/-- A core that owes nothing owes, in particular, what proof data that owe nothing say before a point; -/
theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, H⟩; iexists W; isplitr; · ipureintro; exact fun _ _ => Or.inl trivial
  iexact H

/-- and the other way round. -/
theorem owes_out {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, H⟩; iexists W; iexact H

end Cert.Kernel.RowMin

end
-- ==== Proof.Kernel.Seg0.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.Kernel.Between
set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call as a segment of @main -/

variable (m : (ℓ : Loc nD τ sig) → Buf (Elt F) ℓ)
-- the library's entailments are stated over the pinned configuration, which unifies with the printed one only
-- when unification may unfold plain definitions in a metavariable's type
set_option backward.isDefEq.respectTransparency.types false in
/-- The first call as a segment of @main: entered with every unscoped buffer at `B0`, left with them at `B1`. Its arrays are
    taken out of the unscoped buffers at entry and put back, at what the write-backs left, at exit; the generator register
    goes into the kernel's invariant and comes back; the core owes nothing and the kernel has no semaphore of its own. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (R0 m) c).loose
  hwaits := Pipeline.hwaits_of_owed_zero _ _ _ _ noPairs noLevel 0 fun _ _ => rfl
  pre c := iprop(StableHlo.held (c : Thread nD τ) (Pipeline.ucRefs τ sig) (B0 m c) ∗ quiet (F := F) c)
  post c := iprop(StableHlo.held (c : Thread nD τ) (Pipeline.ucRefs τ sig) (B1 m c) ∗ quiet (F := F) c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R0 m c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · exact noTables
    isplitl [Howes]; · iapply (owes_in (pdats m 0 c) 0 rfl rfl); iexact Howes
    isplitl [Hgen]; · iexact Hgen
    iexact Hrest
  hin c := by
    refine .trans ?_ (hin0 (R0 m) c)
    unfold Pipeline.ΦA
    iintro ⟨Hgen, -, Hsc⟩
    isplitl [Hsc]; · iexact Hsc
    iexact Hgen
  hout c := by
    rw [Pipeline.ownSems0_none]
    refine (hout0 (R0 m) c).trans ?_
    unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R0 m c) (R1 m c) ((pdats m 0 c).arrAt · cfg0.N) (fun w => (B1_arr m c w).symm)
      (fun b hb => B1_other m c b fun w e => hb (Finset.mem_image.mpr ⟨w, Finset.mem_univ _, e⟩))
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    iapply (owes_out (pdats m 0 c) (Fin.last _) rfl); iexact Howes

end Cert.Kernel.RowMin

end
-- ==== Proof.Kernel.Seg1.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.Kernel.Between
set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call as a segment of @main -/

variable (m : (ℓ : Loc nD τ sig) → Buf (Elt F) ℓ)
-- the library's entailments are stated over the pinned configuration, which unifies with the printed one only
-- when unification may unfold plain definitions in a metavariable's type
set_option backward.isDefEq.respectTransparency.types false in
/-- The second call as a segment of @main: entered with every unscoped buffer at `B1`, left with them at `B2`. Its arrays are
    taken out of the unscoped buffers at entry and put back, at what the write-backs left, at exit; the generator register
    goes into the kernel's invariant and comes back; the core owes nothing and the kernel has no semaphore of its own. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (R1 m) c).loose
  hwaits := Pipeline.hwaits_of_owed_zero _ _ _ _ noPairs noLevel 1 fun _ _ => rfl
  pre c := iprop(StableHlo.held (c : Thread nD τ) (Pipeline.ucRefs τ sig) (B1 m c) ∗ quiet (F := F) c)
  post c := iprop(StableHlo.held (c : Thread nD τ) (Pipeline.ucRefs τ sig) (B2 m c) ∗ quiet (F := F) c)
  X c := iprop(∃ r, prngReg c r)
  Y c := iprop(∃ r, prngReg c r)
  Z c := Pipeline.unscopedRest (Ix := Unit) (Name := ℕ) (U := UR sig nD τ) (Lvl := ℕ) spec1 c (R1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R1 m c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · exact noTables
    isplitl [Howes]; · iapply (owes_in (pdats m 1 c) 0 rfl rfl); iexact Howes
    isplitl [Hgen]; · iexact Hgen
    iexact Hrest
  hin c := by
    refine .trans ?_ (hin1 (R1 m) c)
    unfold Pipeline.ΦA
    iintro ⟨Hgen, -, Hsc⟩
    isplitl [Hsc]; · iexact Hsc
    iexact Hgen
  hout c := by
    rw [Pipeline.ownSems0_none]
    refine (hout1 (R1 m) c).trans ?_
    unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R1 m c) (R2 m c) ((pdats m 1 c).arrAt · cfg1.N) (fun w => (B2_arr m c w).symm)
      (fun b hb => B2_other m c b fun w e => hb (Finset.mem_image.mpr ⟨w, Finset.mem_univ _, e⟩))
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    iapply (owes_out (pdats m 1 c) (Fin.last _) rfl); iexact Howes

end Cert.Kernel.RowMin

end
-- ==== Proof.Kernel.Run.lean ====
import proofs.«128316_j11218454577160_1_alg».proof.Proof.Gen.Kernel.Launch
import proofs.«128316_j11218454577160_1_alg».proof.Proof.Gen.Kernel.Skeleton
import proofs.«128316_j11218454577160_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.Kernel.Seg0
import proofs.«128316_j11218454577160_1_alg».proof.Proof.Kernel.Seg1
set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: the two calls, then the host's means -/

variable (m : (ℓ : Loc nD τ sig) → Buf (Elt F) ℓ) (ρ : Dev nD → PrngReg)

theorem hostOps2_fresh : (hostOps2 : List (HloOp τ sig (Elt F))).Forall fun op => op.fresh = ∅ := by
  simp only [List.Forall]; repeat' constructor

/-- The host's fifteen operations, run over the unscoped buffers from `B2`. -/
abbrev means : Pipeline.HostSeg (Name := ℕ) (U := UR sig nD τ) (pcfgs (F := F)) defs₀ Variants.none noPairs noLevel :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (B2 m) (quiet (F := F))

/-- @main's three items, in order. -/
abbrev items : List (Pipeline.Seg (pcfgs (F := F)) adm (pdats m) () defs₀ Variants.none noPairs noLevel) :=
  [.region (reg0 m), .region (reg1 m), .host (means m)]

theorem main_items (c : Dev nD) : main (F := F) c = Pipeline.Seg.run (items m) := (main_chain c).trans (by chain_rfl)

/-! ## The launch -/

-- the launch theorem's implicit arguments are found by unifying its conclusion with this one, which takes unfolding plain
-- definitions in a metavariable's type
set_option backward.isDefEq.respectTransparency.types false in
/-- From any memory with zero counters every weakly fair execution of @main terminates, nothing faulting, and every
    unscoped buffer of every core ends at `B3`: the arguments as launched, the two outputs at what their calls' write-backs
    left, the result at the host operations' value of them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ Variants.none noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ quiet (F := F) c))
    (Tₙ := fun c => iprop(StableHlo.held (c : Thread nD τ) (Pipeline.ucRefs τ sig) (B3 m c) ∗ ∃ r, prngReg c r))
    (hch := ⟨fun _ => .rfl, fun _ => .rfl, fun _ => .rfl, fun c => by
      show iprop(StableHlo.held (c : Thread nD τ) (Pipeline.ucRefs τ sig) (B3 m c) ∗ quiet (F := F) c) ⊢ _
      iintro ⟨Hh, Hgen, Howes⟩
      isplitr [Howes]
      · isplitl [Hh]; · iexact Hh
        iexact Hgen
      iexact Howes⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, Howes, -, Hgen, -⟩, -⟩
      imodintro
      isplitl [Hh]; · iexact Hh
      isplitl [Hgen]; · iexists _; iexact Hgen
      iexists ∅; iexact Howes)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-! ## Reading the end -/

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The references the host's operations write: the averages' intermediate and final buffers. -/
abbrev meansWrite : List (Ref sig .tc) := [main_cst, main_v2, main_cst_0, main_v3, main_v4, main_cst_1, main_v5, main_cst_2, main_v6, main_v7, main_v8, main_cst_3, main_v9, main_cst_4, main_v10]

theorem hostOps2_writes : (hostOps2 : List (HloOp τ sig (Elt F))).Forall fun op => op.writes ⊆ (meansWrite.map (Proc.devRef (τ := τ) .tc)).toFinset := by
  simp only [List.Forall, StableHlo.nullary_writes, StableHlo.unary_writes, StableHlo.binary_writes, Finset.singleton_subset_iff, List.mem_toFinset]
  repeat' apply And.intro
  all_goals exact List.mem_map_of_mem (by decide)

/-- The host's operations leave every buffer they do not write. -/
theorem B3_keeps (c : Dev nD) (r : Ref sig .tc) (h : r ∉ meansWrite) : B3 m c r = B2 m c r :=
  StableHlo.after_of_writes_sub hostOps2 _ hostOps2_writes h

/-- The first argument ends as launched: the second call stages it as its queries and the first as its keys, both
    read-only, and the host's operations do not write it. -/
theorem B3_arg0 (c : Dev nD) : B3 m c main_arg0 = m ((c : Thread nD τ).loc main_arg0) :=
  calc B3 m c main_arg0
    _ = B2 m c main_arg0 := B3_keeps m c main_arg0 (by decide)
    _ = B1 m c main_arg0 := (B2_arr m c 0).trans (((dat1 (R1 m) c).arrAt_in 0 rfl _).trans (A_eq1 (R1 m) c 0))
    _ = B0 m c main_arg0 := (B1_arr m c 1).trans (((dat0 (R0 m) c).arrAt_in 1 rfl _).trans (A_eq0 (R0 m) c 1))
    _ = m ((c : Thread nD τ).loc main_arg0) := rfl

/-- The second argument likewise. -/
theorem B3_arg1 (c : Dev nD) : B3 m c main_arg1 = m ((c : Thread nD τ).loc main_arg1) :=
  calc B3 m c main_arg1
    _ = B2 m c main_arg1 := B3_keeps m c main_arg1 (by decide)
    _ = B1 m c main_arg1 := (B2_arr m c 1).trans (((dat1 (R1 m) c).arrAt_in 1 rfl _).trans (A_eq1 (R1 m) c 1))
    _ = B0 m c main_arg1 := (B1_arr m c 0).trans (((dat0 (R0 m) c).arrAt_in 0 rfl _).trans (A_eq0 (R0 m) c 0))
    _ = m ((c : Thread nD τ).loc main_arg1) := rfl

/-- THE FRAME: every weakly fair execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_arg0 m c), (h c _ (mem_uc main_arg1 (by decide))).trans (B3_arg1 m c)⟩)
    (run_all m ρ)

end Cert.Kernel.RowMin

end
-- ==== Proof.KernelIdeal.Step0.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.LibWholeStore

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.WholeStore

variable {F : FTy → Type} [FloatOps F]

local notation "𝕄" => MT nD τ sig Unit (Elt F) ℕ (UR sig nD τ) ℕ

/-! # One grid point of the first call's kernel, on any staging memrefs

The body keeps, in its scratch, the running minimum over the key tiles seen so far of the
distances from each query row of the tile to the keys. At the first key tile it first resets
the scratch to +∞; at the last one it also copies the scratch into the output block. So a point
is in one of three cases, told apart by the key-tile coordinate, and in each the body leaves
the scratch at `k0_pay2 q k s` (the minimum of `s` and the tile's row minima), with `s` the
scratch as found — or the +∞ splat `k0_pay1` where the body has just reset it. -/

/-- The key-tile coordinate is 0: the body resets the scratch. -/
abbrev atFirst0 (i : grid0.Coords) : Prop :=
  (Scalar.cmpi .ne (Scalar.extui (Scalar.cmpi .eq (BitVec.ofNat 32 (i 1).val) 0#32)) 0#32) = 1#1
/-- The key-tile coordinate is the last one: the body copies the scratch out. -/
abbrev atLast0 (i : grid0.Coords) : Prop := k0_cond2 i = 1#1

set_option maxHeartbeats 1000000 in
theorem step0_mid (c : Dev nD) (E : Set ℕ) (i : grid0.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst0 i) (hl : ¬ atLast0 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k0_pay2 q k s)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

set_option maxHeartbeats 1000000 in
theorem step0_first (c : Dev nD) (E : Set ℕ) (i : grid0.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : atFirst0 i) (hl : ¬ atLast0 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k0_pay2 q k k0_pay1)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  sl_unfold_words
  simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]

set_option maxHeartbeats 1000000 in
theorem step0_last (c : Dev nD) (E : Set ℕ) (i : grid0.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst0 i) (hl : atLast0 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare (k0_pay2 q k s)
            ∗ owns (c : Thread nD τ) arg5 fullShare (k0_pay2 q k s)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_after_whole_store _ _ zeros2]
    sl_unfold_words
    simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]
  iexists _; isplitr
  swap; · iexact H3
  ipureintro
  sl_unfold_words
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

end Cert.KernelIdeal.RowMin

end
-- ==== Proof.KernelIdeal.Data0.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.KernelIdeal.Step0
set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call as a pipeline: what it holds, point by point

Grid point `t` of the call is query tile `t / 16` against key tile `t % 16`. Over a run of
sixteen points with one query tile the scratch holds the running minimum over the key tiles
seen so far: `acc0` below, reset where `t % 16 = 0`. The output block is stored at the run's
last point only (`t % 16 = 15`), where it receives that minimum; at the other points the output
window is idle and its buffer is handed back as found. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile and the key tile of point `t`, at their literal types. -/
abbrev qblk0 (c : Dev nD) (t : Fin cfg0.N) : Vec F S2x1024x3 .f32 := iblk0 V c 0 t
abbrev kblk0 (c : Dev nD) (t : Fin cfg0.N) : Vec F S2x512x3 .f32 := iblk0 V c 1 t

/-- THE RUNNING MINIMUM: what the scratch holds after point `n`. At the first key tile of a query tile it is
    the tile's row minima against +∞; afterwards the minimum of those and what the point before left. -/
def acc0 (c : Dev nD) : (n : ℕ) → n < cfg0.N → Vec F S2x1024 .f32
  | 0, h => k0_pay2 (qblk0 V c ⟨0, h⟩) (kblk0 V c ⟨0, h⟩) k0_pay1
  | n + 1, h =>
    if (n + 1) % 16 = 0 then k0_pay2 (qblk0 V c ⟨n + 1, h⟩) (kblk0 V c ⟨n + 1, h⟩) k0_pay1
    else k0_pay2 (qblk0 V c ⟨n + 1, h⟩) (kblk0 V c ⟨n + 1, h⟩) (acc0 c n (Nat.lt_of_succ_lt h))

theorem acc0_reset (c : Dev nD) (t : Fin cfg0.N) (h : t.val % 16 = 0) :
    acc0 V c t.val t.isLt = k0_pay2 (qblk0 V c t) (kblk0 V c t) k0_pay1 := by
  obtain ⟨n, hn⟩ := t
  cases n with
  | zero => rfl
  | succ n => exact if_pos h

theorem acc0_step (c : Dev nD) (t : Fin cfg0.N) (h : ¬ t.val % 16 = 0) :
    acc0 V c t.val t.isLt = k0_pay2 (qblk0 V c t) (kblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- The core's scoped buffers that are no staging buffer of this call. -/
abbrev scoped0 : Finset (Ref sig .tc) :=
  (Finset.univ.filter fun b : Ref sig .tc => b.isScoped) \ Finset.univ.image (Pipeline.stageRef spec0)

/-- Those of them that are not this call's scratch, each whole at some contents: the other call's buffers, which
    this call never touches. -/
def others0 (c : Dev nD) : sProp 𝕄 :=
  bigSep (scoped0.erase cc0_scratch0) fun b => iprop(∃ f : Buf (Elt F) ((c.tc : Thread nD τ).loc b), ((c.tc : Thread nD τ).loc b) ↦{fullShare} f)

theorem scratch_mem0 : cc0_scratch0 ∈ scoped0 := by decide

/-- The scoped rest is the scratch and the other scoped buffers. -/
theorem scoped_split0 (c : Dev nD) :
    (Pipeline.scopedRest (Ix := Unit) (Name := ℕ) (U := UR sig nD τ) (Lvl := ℕ) (Val := Elt F) spec0 c : sProp 𝕄)
      = (iprop((∃ f : Buf (Elt F) ((c.tc : Thread nD τ).loc cc0_scratch0), ((c.tc : Thread nD τ).loc cc0_scratch0) ↦{fullShare} f) ∗ others0 (F := F) c) : sProp 𝕄) := by
  unfold Pipeline.scopedRest others0; exact bigSep_erase scratch_mem0

/-- The class's invariant opens into the scratch at some contents, the other scoped buffers and the generator register; -/
theorem open0 (c : Dev nD) :
    (Pipeline.ΦA spec0 c : sProp 𝕄) ⊢ iprop((∃ d, owns (c : Thread nD τ) (Memref.whole cc0_scratch0) fullShare d) ∗ others0 (F := F) c ∗ ∃ r, prngReg c r) := by
  unfold Pipeline.ΦA
  rw [scoped_split0]
  simp only [owns_whole]
  iintro ⟨⟨Hs, Hrest⟩, Hg⟩
  isplitl [Hs]; · iexact Hs
  isplitl [Hrest]; · iexact Hrest
  iexact Hg

/-- and closes from them. -/
theorem close0 (c : Dev nD) :
    (iprop((∃ d, owns (c : Thread nD τ) (Memref.whole cc0_scratch0) fullShare d) ∗ others0 (F := F) c ∗ ∃ r, prngReg c r) : sProp 𝕄) ⊢ Pipeline.ΦA spec0 c := by
  unfold Pipeline.ΦA
  rw [scoped_split0]
  simp only [owns_whole]
  iintro ⟨Hs, Hrest, Hg⟩
  isplitr [Hg]
  · isplitl [Hs]; · iexact Hs
    iexact Hrest
  iexact Hg

/-- The region's invariant before position `n`: at the region's entry the class's (the scratch at anything);
    afterwards the scratch at the running minimum after the point before. -/
def held0 (c : Dev nD) : (n : ℕ) → n ≤ cfg0.N → sProp 𝕄
  | 0, _ => Pipeline.ΦA spec0 c
  | n + 1, hn => iprop(owns (c : Thread nD τ) (Memref.whole cc0_scratch0) fullShare (acc0 V c n hn) ∗ others0 (F := F) c ∗ ∃ r, prngReg c r)

theorem held0_zero (c : Dev nD) (n : ℕ) (h : n ≤ cfg0.N) (hz : n = 0) : held0 V c n h = Pipeline.ΦA spec0 c := by
  subst hz; rfl

theorem held0_succ (c : Dev nD) (n : ℕ) (hn : n < cfg0.N) :
    held0 V c (n + 1) hn = iprop(owns (c : Thread nD τ) (Memref.whole cc0_scratch0) fullShare (acc0 V c n hn) ∗ others0 (F := F) c ∗ ∃ r, prngReg c r) := rfl

theorem held0_pos (c : Dev nD) (n : ℕ) (h : n ≤ cfg0.N) (hz : n ≠ 0) :
    held0 V c n h = iprop(owns (c : Thread nD τ) (Memref.whole cc0_scratch0) fullShare (acc0 V c (n - 1) (by omega)) ∗ others0 (F := F) c ∗ ∃ r, prngReg c r) := by
  cases n with
  | zero => exact absurd rfl hz
  | succ n => rfl

/-! ## The proof data -/

/-- The call's proof data on core `c`: the arrays as the region finds them; after the body each input's buffer at its
    block, the output's at the running minimum (consulted only where the block is stored, at a run's last point);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := held0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem held0_castSucc (c : Dev nD) (t : Fin cfg0.N) :
    (dat0 V c).Φ t.castSucc = held0 V c t.val (Nat.le_of_lt t.isLt) := by
  dsimp only [dat0]; simp only [Fin.coe_castSucc]

/-- Each input's current staging buffer holds its block at every point, fetched there or not: the query tile is
    fetched once per run of sixteen points and its block index does not move within the run. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The schedule: which case a point is in, and where the output window is idle -/

theorem first_iff0 : ∀ t : Fin cfg0.N, atFirst0 (grid0.coords t) ↔ t.val % 16 = 0 :=
  (by decide +kernel : ∀ t : Fin grid0.N, atFirst0 (grid0.coords t) ↔ t.val % 16 = 0)
theorem last_iff0 : ∀ t : Fin cfg0.N, atLast0 (grid0.coords t) ↔ t.val % 16 = 15 :=
  (by decide +kernel : ∀ t : Fin grid0.N, atLast0 (grid0.coords t) ↔ t.val % 16 = 15)
theorem idle_out0 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem live_out0 : ∀ t : Fin cfg0.N, t.val % 16 = 15 → cfg0.idle 2 (grid0.coords t) = false :=
  (by decide +kernel : ∀ t : Fin grid0.N, t.val % 16 = 15 → cfg0.idle 2 (grid0.coords t) = false)
theorem noflush_out0 (t : Fin cfg0.N) (h : ¬ t.val % 16 = 15) : (cfg0.win 2).flush t = false := by
  cases hf : (cfg0.win 2).flush t
  · rfl
  · exact absurd ((flush0_2 t).mp hf) h

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; the key-tile coordinate says which case the point is
    in; the invariant hands the body the scratch at what the point before left (at anything at the region's entry, and
    the body resets it there), and takes it back at this point's running minimum; at a run's last point the output's
    buffer receives that minimum too, elsewhere it goes back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = held0 V c (t.val + 1) t.isLt from rfl, held0_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  have hN : t.val < 128 := lt_of_lt_of_eq t.isLt (show cfg0.N = 128 from N_0)
  by_cases h0 : t.val % 16 = 0
  · -- the first key tile of a query tile: the scratch is reset, whatever it held
    have h15 : ¬ t.val % 16 = 15 := by omega
    rw [Dat.leavesExact_idle (dat0 V c) 2 t (idle_out0 t h15) (noflush_out0 t h15), acc0_reset V c t h0]
    have hscr : (dat0 V c).Φ t.castSucc ⊢ iprop((∃ d, owns (c : Thread nD τ) (Memref.whole cc0_scratch0) fullShare d) ∗ others0 (F := F) c ∗ ∃ r, prngReg c r) := by
      rw [held0_castSucc]
      by_cases hz : t.val = 0
      · rw [held0_zero V c _ _ hz]; exact open0 c
      · rw [held0_pos V c _ _ hz]
        iintro ⟨Hs, Hrest⟩
        isplitl [Hs]; · iexists _; iexact Hs
        iexact Hrest
    iintro ⟨HΦ, Ho, ⟨%d0, H0⟩, ⟨%d1, H1⟩, ⟨%d2, H2⟩⟩
    ihave HΦ' := hscr $$ HΦ
    icases HΦ' with ⟨⟨%s, Hs⟩, Hrest, Hg⟩
    iapply (step0_first c Set.univ (grid0.coords t) _ _ _ _ _ _ _ _ ((first_iff0 t).mpr h0) (fun h => h15 ((last_iff0 t).mp h))
      (qblk0 V c t) (kblk0 V c t) ((dat0 V c).before 2 t d2) s _)
    isplitl [H0]; · iexact H0
    isplitl [H1]; · iexact H1
    isplitl [H2]; · iexact H2
    isplitl [Hs]; · iexact Hs
    iintro ⟨H0, H1, H2, Hs⟩
    isplitl [Hs Hrest Hg]
    · isplitl [Hs]; · iexact Hs
      isplitl [Hrest]; · iexact Hrest
      iexact Hg
    isplitl [Ho]; · iexact Ho
    isplitl [H0]; · iexact H0
    isplitl [H1]; · iexact H1
    iexists _; iexact H2
  · have hz : t.val ≠ 0 := fun e => h0 (by rw [e])
    rw [held0_castSucc, held0_pos V c _ _ hz, acc0_step V c t h0]
    by_cases h15 : t.val % 16 = 15
    · -- the last key tile: the running minimum also goes to the output block
      rw [show (dat0 V c).leavesExact 2 t = owns (c : Thread nD τ) (st0_2 t) fullShare ((dat0 V c).after 2 t) from by
        unfold Dat.leavesExact; rw [live_out0 t h15], after0_2, acc0_step V c t h0]
      iintro ⟨⟨Hs, Hrest, Hg⟩, Ho, ⟨%d0, H0⟩, ⟨%d1, H1⟩, ⟨%d2, H2⟩⟩
      iapply (step0_last c Set.univ (grid0.coords t) _ _ _ _ _ _ _ _ (fun h => h0 ((first_iff0 t).mp h)) ((last_iff0 t).mpr h15)
        (qblk0 V c t) (kblk0 V c t) ((dat0 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexact H2
    · -- a key tile in between
      rw [Dat.leavesExact_idle (dat0 V c) 2 t (idle_out0 t h15) (noflush_out0 t h15)]
      iintro ⟨⟨Hs, Hrest, Hg⟩, Ho, ⟨%d0, H0⟩, ⟨%d1, H1⟩, ⟨%d2, H2⟩⟩
      iapply (step0_mid c Set.univ (grid0.coords t) _ _ _ _ _ _ _ _ (fun h => h0 ((first_iff0 t).mp h)) (fun h => h15 ((last_iff0 t).mp h))
        (qblk0 V c t) (kblk0 V c t) ((dat0 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the kernel is the invariant before the first point; -/
theorem hin0 (c : Dev nD) : Pipeline.ΦA spec0 c ⊢ (dat0 V c).Φ 0 := by
  rw [show (dat0 V c).Φ 0 = held0 V c 0 (Nat.zero_le _) from rfl, held0_zero V c 0 _ rfl]

/-- after the last point the invariant gives it back, the running minimum's name forgotten. -/
theorem hout0 (c : Dev nD) : (dat0 V c).Φ (Fin.last cfg0.N) ⊢ Pipeline.ΦA spec0 c := by
  rw [show (dat0 V c).Φ (Fin.last cfg0.N) = held0 V c (Fin.last cfg0.N).val (Nat.le_of_lt_succ (Fin.last cfg0.N).isLt) from rfl,
    held0_pos V c _ _ (by rw [Fin.val_last]; have : cfg0.N = 128 := N_0; omega)]
  refine .trans ?_ (close0 c)
  iintro ⟨Hs, Hrest⟩
  isplitl [Hs]; · iexists _; iexact Hs
  iexact Hrest

end

end Cert.KernelIdeal.RowMin

end
-- ==== Proof.KernelIdeal.Step1.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.LibWholeStore

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.WholeStore

variable {F : FTy → Type} [FloatOps F]

local notation "𝕄" => MT nD τ sig Unit (Elt F) ℕ (UR sig nD τ) ℕ

/-! # One grid point of the second call's kernel, on any staging memrefs

The body keeps, in its scratch, the running minimum over the key tiles seen so far of the
distances from each query row of the tile to the keys. At the first key tile it first resets
the scratch to +∞; at the last one it also copies the scratch into the output block. So a point
is in one of three cases, told apart by the key-tile coordinate, and in each the body leaves
the scratch at `k1_pay2 q k s` (the minimum of `s` and the tile's row minima), with `s` the
scratch as found — or the +∞ splat `k1_pay1` where the body has just reset it. -/

/-- The key-tile coordinate is 0: the body resets the scratch. -/
abbrev atFirst1 (i : grid1.Coords) : Prop :=
  (Scalar.cmpi .ne (Scalar.extui (Scalar.cmpi .eq (BitVec.ofNat 32 (i 1).val) 0#32)) 0#32) = 1#1
/-- The key-tile coordinate is the last one: the body copies the scratch out. -/
abbrev atLast1 (i : grid1.Coords) : Prop := k1_cond2 i = 1#1

set_option maxHeartbeats 1000000 in
theorem step1_mid (c : Dev nD) (E : Set ℕ) (i : grid1.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst1 i) (hl : ¬ atLast1 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k1_pay2 q k s)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

set_option maxHeartbeats 1000000 in
theorem step1_first (c : Dev nD) (E : Set ℕ) (i : grid1.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : atFirst1 i) (hl : ¬ atLast1 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare o
            ∗ owns (c : Thread nD τ) arg5 fullShare (k1_pay2 q k k1_pay1)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_after_whole_store _ _ zeros2]
  sl_unfold_words
  simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]

set_option maxHeartbeats 1000000 in
theorem step1_last (c : Dev nD) (E : Set ℕ) (i : grid1.Coords)
    (arg2 : Memref sig .tc .vmem S2x1024x3 .f32) (harg2 : arg2.IsWhole) (arg3 : Memref sig .tc .vmem S2x512x3 .f32) (harg3 : arg3.IsWhole)
    (arg4 : Memref sig .tc .vmem S2x1024 .f32) (harg4 : arg4.IsWhole) (arg5 : Memref sig .tc .vmem S2x1024 .f32) (harg5 : arg5.IsWhole)
    (hf : ¬ atFirst1 i) (hl : atLast1 i)
    (q : Vec F S2x1024x3 .f32) (k : Vec F S2x512x3 .f32) (o : Vec F S2x1024 .f32) (s : Vec F S2x1024 .f32) (K : PUnit → sProp 𝕄) :
    iprop(owns (c : Thread nD τ) arg2 fullShare q ∗ owns (c : Thread nD τ) arg3 fullShare k ∗ owns (c : Thread nD τ) arg4 fullShare o
        ∗ owns (c : Thread nD τ) arg5 fullShare s
        ∗ (iprop(owns (c : Thread nD τ) arg2 fullShare q ∗ owns (c : Thread nD τ) arg3 fullShare k ∗ owns (c : Thread nD τ) arg4 fullShare (k1_pay2 q k s)
            ∗ owns (c : Thread nD τ) arg5 fullShare (k1_pay2 q k s)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_after_whole_store _ _ zeros2]
    sl_unfold_words
    simp only [View.readAt_eq_ld, harg2.read_unread, harg3.read_unread, harg5.read_unread,
    View.ld_unit_zero (S := S2x1024x3) zeros3, View.ld_unit_zero (S := S2x512x3) zeros3, View.ld_unit_zero (S := S2x1024) zeros2, View.readCov_unit_zero (S := S2x1024) _ zeros2]
  iexists _; isplitr
  swap; · iexact H3
  ipureintro
  sl_unfold_words
  rw [read_after_whole_store _ _ zeros2]
  simp only [View.readAt_eq_ld, harg2.read_unread, harg3.read_unread, harg5.read_unread,
    View.ld_unit_zero (S := S2x1024x3) zeros3, View.ld_unit_zero (S := S2x512x3) zeros3, View.ld_unit_zero (S := S2x1024) zeros2]

end Cert.KernelIdeal.RowMin

end
-- ==== Proof.KernelIdeal.Data1.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.KernelIdeal.Step1
set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call as a pipeline: what it holds, point by point

Grid point `t` of the call is query tile `t / 16` against key tile `t % 16`. Over a run of
sixteen points with one query tile the scratch holds the running minimum over the key tiles
seen so far: `acc1` below, reset where `t % 16 = 0`. The output block is stored at the run's
last point only (`t % 16 = 15`), where it receives that minimum; at the other points the output
window is idle and its buffer is handed back as found. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile and the key tile of point `t`, at their literal types. -/
abbrev qblk1 (c : Dev nD) (t : Fin cfg1.N) : Vec F S2x1024x3 .f32 := iblk1 V c 0 t
abbrev kblk1 (c : Dev nD) (t : Fin cfg1.N) : Vec F S2x512x3 .f32 := iblk1 V c 1 t

/-- THE RUNNING MINIMUM: what the scratch holds after point `n`. At the first key tile of a query tile it is
    the tile's row minima against +∞; afterwards the minimum of those and what the point before left. -/
def acc1 (c : Dev nD) : (n : ℕ) → n < cfg1.N → Vec F S2x1024 .f32
  | 0, h => k1_pay2 (qblk1 V c ⟨0, h⟩) (kblk1 V c ⟨0, h⟩) k1_pay1
  | n + 1, h =>
    if (n + 1) % 16 = 0 then k1_pay2 (qblk1 V c ⟨n + 1, h⟩) (kblk1 V c ⟨n + 1, h⟩) k1_pay1
    else k1_pay2 (qblk1 V c ⟨n + 1, h⟩) (kblk1 V c ⟨n + 1, h⟩) (acc1 c n (Nat.lt_of_succ_lt h))

theorem acc1_reset (c : Dev nD) (t : Fin cfg1.N) (h : t.val % 16 = 0) :
    acc1 V c t.val t.isLt = k1_pay2 (qblk1 V c t) (kblk1 V c t) k1_pay1 := by
  obtain ⟨n, hn⟩ := t
  cases n with
  | zero => rfl
  | succ n => exact if_pos h

theorem acc1_step (c : Dev nD) (t : Fin cfg1.N) (h : ¬ t.val % 16 = 0) :
    acc1 V c t.val t.isLt = k1_pay2 (qblk1 V c t) (kblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- The core's scoped buffers that are no staging buffer of this call. -/
abbrev scoped1 : Finset (Ref sig .tc) :=
  (Finset.univ.filter fun b : Ref sig .tc => b.isScoped) \ Finset.univ.image (Pipeline.stageRef spec1)

/-- Those of them that are not this call's scratch, each whole at some contents: the other call's buffers, which
    this call never touches. -/
def others1 (c : Dev nD) : sProp 𝕄 :=
  bigSep (scoped1.erase cc1_scratch0) fun b => iprop(∃ f : Buf (Elt F) ((c.tc : Thread nD τ).loc b), ((c.tc : Thread nD τ).loc b) ↦{fullShare} f)

theorem scratch_mem1 : cc1_scratch0 ∈ scoped1 := by decide

/-- The scoped rest is the scratch and the other scoped buffers. -/
theorem scoped_split1 (c : Dev nD) :
    (Pipeline.scopedRest (Ix := Unit) (Name := ℕ) (U := UR sig nD τ) (Lvl := ℕ) (Val := Elt F) spec1 c : sProp 𝕄)
      = (iprop((∃ f : Buf (Elt F) ((c.tc : Thread nD τ).loc cc1_scratch0), ((c.tc : Thread nD τ).loc cc1_scratch0) ↦{fullShare} f) ∗ others1 (F := F) c) : sProp 𝕄) := by
  unfold Pipeline.scopedRest others1; exact bigSep_erase scratch_mem1

/-- The class's invariant opens into the scratch at some contents, the other scoped buffers and the generator register; -/
theorem open1 (c : Dev nD) :
    (Pipeline.ΦA spec1 c : sProp 𝕄) ⊢ iprop((∃ d, owns (c : Thread nD τ) (Memref.whole cc1_scratch0) fullShare d) ∗ others1 (F := F) c ∗ ∃ r, prngReg c r) := by
  unfold Pipeline.ΦA
  rw [scoped_split1]
  simp only [owns_whole]
  iintro ⟨⟨Hs, Hrest⟩, Hg⟩
  isplitl [Hs]; · iexact Hs
  isplitl [Hrest]; · iexact Hrest
  iexact Hg

/-- and closes from them. -/
theorem close1 (c : Dev nD) :
    (iprop((∃ d, owns (c : Thread nD τ) (Memref.whole cc1_scratch0) fullShare d) ∗ others1 (F := F) c ∗ ∃ r, prngReg c r) : sProp 𝕄) ⊢ Pipeline.ΦA spec1 c := by
  unfold Pipeline.ΦA
  rw [scoped_split1]
  simp only [owns_whole]
  iintro ⟨Hs, Hrest, Hg⟩
  isplitr [Hg]
  · isplitl [Hs]; · iexact Hs
    iexact Hrest
  iexact Hg

/-- The region's invariant before position `n`: at the region's entry the class's (the scratch at anything);
    afterwards the scratch at the running minimum after the point before. -/
def held1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ others1 (F := F) c ∗ ∃ r, prngReg c r)

theorem held1_zero (c : Dev nD) (n : ℕ) (h : n ≤ cfg1.N) (hz : n = 0) : held1 V c n h = Pipeline.ΦA spec1 c := by
  subst hz; rfl

theorem held1_succ (c : Dev nD) (n : ℕ) (hn : n < cfg1.N) :
    held1 V c (n + 1) hn = iprop(owns (c : Thread nD τ) (Memref.whole cc1_scratch0) fullShare (acc1 V c n hn) ∗ others1 (F := F) c ∗ ∃ r, prngReg c r) := rfl

theorem held1_pos (c : Dev nD) (n : ℕ) (h : n ≤ cfg1.N) (hz : n ≠ 0) :
    held1 V c n h = iprop(owns (c : Thread nD τ) (Memref.whole cc1_scratch0) fullShare (acc1 V c (n - 1) (by omega)) ∗ others1 (F := F) c ∗ ∃ r, prngReg c r) := by
  cases n with
  | zero => exact absurd rfl hz
  | succ n => rfl

/-! ## The proof data -/

/-- The call's proof data on core `c`: the arrays as the region finds them; after the body each input's buffer at its
    block, the output's at the running minimum (consulted only where the block is stored, at a run's last point);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := held1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem held1_castSucc (c : Dev nD) (t : Fin cfg1.N) :
    (dat1 V c).Φ t.castSucc = held1 V c t.val (Nat.le_of_lt t.isLt) := by
  dsimp only [dat1]; simp only [Fin.coe_castSucc]

/-- Each input's current staging buffer holds its block at every point, fetched there or not: the query tile is
    fetched once per run of sixteen points and its block index does not move within the run. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The schedule: which case a point is in, and where the output window is idle -/

theorem first_iff1 : ∀ t : Fin cfg1.N, atFirst1 (grid1.coords t) ↔ t.val % 16 = 0 :=
  (by decide +kernel : ∀ t : Fin grid1.N, atFirst1 (grid1.coords t) ↔ t.val % 16 = 0)
theorem last_iff1 : ∀ t : Fin cfg1.N, atLast1 (grid1.coords t) ↔ t.val % 16 = 15 :=
  (by decide +kernel : ∀ t : Fin grid1.N, atLast1 (grid1.coords t) ↔ t.val % 16 = 15)
theorem idle_out1 : ∀ t : Fin cfg1.N, ¬ t.val % 16 = 15 → cfg1.idle 2 (grid1.coords t) = true :=
  (by decide +kernel : ∀ t : Fin grid1.N, ¬ t.val % 16 = 15 → cfg1.idle 2 (grid1.coords t) = true)
theorem live_out1 : ∀ t : Fin cfg1.N, t.val % 16 = 15 → cfg1.idle 2 (grid1.coords t) = false :=
  (by decide +kernel : ∀ t : Fin grid1.N, t.val % 16 = 15 → cfg1.idle 2 (grid1.coords t) = false)
theorem noflush_out1 (t : Fin cfg1.N) (h : ¬ t.val % 16 = 15) : (cfg1.win 2).flush t = false := by
  cases hf : (cfg1.win 2).flush t
  · rfl
  · exact absurd ((flush1_2 t).mp hf) h

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; the key-tile coordinate says which case the point is
    in; the invariant hands the body the scratch at what the point before left (at anything at the region's entry, and
    the body resets it there), and takes it back at this point's running minimum; at a run's last point the output's
    buffer receives that minimum too, elsewhere it goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = held1 V c (t.val + 1) t.isLt from rfl, held1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  have hN : t.val < 128 := lt_of_lt_of_eq t.isLt (show cfg1.N = 128 from N_1)
  by_cases h0 : t.val % 16 = 0
  · -- the first key tile of a query tile: the scratch is reset, whatever it held
    have h15 : ¬ t.val % 16 = 15 := by omega
    rw [Dat.leavesExact_idle (dat1 V c) 2 t (idle_out1 t h15) (noflush_out1 t h15), acc1_reset V c t h0]
    have hscr : (dat1 V c).Φ t.castSucc ⊢ iprop((∃ d, owns (c : Thread nD τ) (Memref.whole cc1_scratch0) fullShare d) ∗ others1 (F := F) c ∗ ∃ r, prngReg c r) := by
      rw [held1_castSucc]
      by_cases hz : t.val = 0
      · rw [held1_zero V c _ _ hz]; exact open1 c
      · rw [held1_pos V c _ _ hz]
        iintro ⟨Hs, Hrest⟩
        isplitl [Hs]; · iexists _; iexact Hs
        iexact Hrest
    iintro ⟨HΦ, Ho, ⟨%d0, H0⟩, ⟨%d1, H1⟩, ⟨%d2, H2⟩⟩
    ihave HΦ' := hscr $$ HΦ
    icases HΦ' with ⟨⟨%s, Hs⟩, Hrest, Hg⟩
    iapply (step1_first c Set.univ (grid1.coords t) _ _ _ _ _ _ _ _ ((first_iff1 t).mpr h0) (fun h => h15 ((last_iff1 t).mp h))
      (qblk1 V c t) (kblk1 V c t) ((dat1 V c).before 2 t d2) s _)
    isplitl [H0]; · iexact H0
    isplitl [H1]; · iexact H1
    isplitl [H2]; · iexact H2
    isplitl [Hs]; · iexact Hs
    iintro ⟨H0, H1, H2, Hs⟩
    isplitl [Hs Hrest Hg]
    · isplitl [Hs]; · iexact Hs
      isplitl [Hrest]; · iexact Hrest
      iexact Hg
    isplitl [Ho]; · iexact Ho
    isplitl [H0]; · iexact H0
    isplitl [H1]; · iexact H1
    iexists _; iexact H2
  · have hz : t.val ≠ 0 := fun e => h0 (by rw [e])
    rw [held1_castSucc, held1_pos V c _ _ hz, acc1_step V c t h0]
    by_cases h15 : t.val % 16 = 15
    · -- the last key tile: the running minimum also goes to the output block
      rw [show (dat1 V c).leavesExact 2 t = owns (c : Thread nD τ) (st1_2 t) fullShare ((dat1 V c).after 2 t) from by
        unfold Dat.leavesExact; rw [live_out1 t h15], after1_2, acc1_step V c t h0]
      iintro ⟨⟨Hs, Hrest, Hg⟩, Ho, ⟨%d0, H0⟩, ⟨%d1, H1⟩, ⟨%d2, H2⟩⟩
      iapply (step1_last c Set.univ (grid1.coords t) _ _ _ _ _ _ _ _ (fun h => h0 ((first_iff1 t).mp h)) ((last_iff1 t).mpr h15)
        (qblk1 V c t) (kblk1 V c t) ((dat1 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexact H2
    · -- a key tile in between
      rw [Dat.leavesExact_idle (dat1 V c) 2 t (idle_out1 t h15) (noflush_out1 t h15)]
      iintro ⟨⟨Hs, Hrest, Hg⟩, Ho, ⟨%d0, H0⟩, ⟨%d1, H1⟩, ⟨%d2, H2⟩⟩
      iapply (step1_mid c Set.univ (grid1.coords t) _ _ _ _ _ _ _ _ (fun h => h0 ((first_iff1 t).mp h)) (fun h => h15 ((last_iff1 t).mp h))
        (qblk1 V c t) (kblk1 V c t) ((dat1 V c).before 2 t d2) _ _)
      isplitl [H0]; · iexact H0
      isplitl [H1]; · iexact H1
      isplitl [H2]; · iexact H2
      isplitl [Hs]; · iexact Hs
      iintro ⟨H0, H1, H2, Hs⟩
      isplitl [Hs Hrest Hg]
      · isplitl [Hs]; · iexact Hs
        isplitl [Hrest]; · iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point; -/
theorem hin1 (c : Dev nD) : Pipeline.ΦA spec1 c ⊢ (dat1 V c).Φ 0 := by
  rw [show (dat1 V c).Φ 0 = held1 V c 0 (Nat.zero_le _) from rfl, held1_zero V c 0 _ rfl]

/-- after the last point the invariant gives it back, the running minimum's name forgotten. -/
theorem hout1 (c : Dev nD) : (dat1 V c).Φ (Fin.last cfg1.N) ⊢ Pipeline.ΦA spec1 c := by
  rw [show (dat1 V c).Φ (Fin.last cfg1.N) = held1 V c (Fin.last cfg1.N).val (Nat.le_of_lt_succ (Fin.last cfg1.N).isLt) from rfl,
    held1_pos V c _ _ (by rw [Fin.val_last]; have : cfg1.N = 128 := N_1; omega)]
  refine .trans ?_ (close1 c)
  iintro ⟨Hs, Hrest⟩
  isplitl [Hs]; · iexists _; iexact Hs
  iexact Hrest

end

end Cert.KernelIdeal.RowMin

end
-- ==== Proof.KernelIdeal.Between.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.KernelIdeal.Data0
import proofs.«128316_j11218454577160_1_alg».proof.Proof.KernelIdeal.Data1
import Idealize.ShloMosaic.Lib.Pipeline.RegionsLoop
import Idealize.ShloMosaic.Lib.Pipeline.FrameSuffix
set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Between the items of @main: what the buffers hold

@main is the first call (queries the second argument, keys the first, into `main_v0`), the second call (the
other way round, into `main_v1`), and fifteen host operations that average the two outputs. Between these three
items the core holds every unscoped buffer at contents named below: at launch the memory `m`; after a call, the same
but for the call's output array, which holds what its write-backs left; at the end, the host operations applied.
Every weakly fair execution terminates with every unscoped buffer at the last of these. -/

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- The same read at the TensorCore's references: what the first call's proof data take. -/
abbrev R0 : (c : Dev nD) → (b : Ref sig .tc) → Buf (Elt F) ((c : Thread nD τ).loc b) := fun c b => B0 m c b
/-- After the first call: its arrays at what the pipeline leaves, every other buffer as before. -/
def B1 (c : Dev nD) : Valuation τ sig (Elt F) :=
  Pipeline.withArrays spec0 c (B0 m c) fun w => (dat0 (R0 m) c).arrAt w cfg0.N
abbrev R1 : (c : Dev nD) → (b : Ref sig .tc) → Buf (Elt F) ((c : Thread nD τ).loc b) := fun c b => B1 m c b
/-- After the second call. -/
def B2 (c : Dev nD) : Valuation τ sig (Elt F) :=
  Pipeline.withArrays spec1 c (B1 m c) fun w => (dat1 (R1 m) c).arrAt w cfg1.N
abbrev R2 : (c : Dev nD) → (b : Ref sig .tc) → Buf (Elt F) ((c : Thread nD τ).loc b) := fun c b => B2 m c b
/-- At the end: the host operations applied. -/
abbrev B3 (c : Dev nD) : Valuation τ sig (Elt F) := StableHlo.after hostOps2 (B2 m c)

theorem B1_arr (c : Dev nD) (w : Fin cfg0.W) :
    B1 m c (Proc.devRef .tc (Pipeline.arrRef spec0 w)) = (dat0 (R0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
theorem B2_arr (c : Dev nD) (w : Fin cfg1.W) :
    B2 m c (Proc.devRef .tc (Pipeline.arrRef spec1 w)) = (dat1 (R1 m) c).arrAt w cfg1.N := by
  unfold B2; exact Pipeline.withArrays_arr spec1 launch1.win.arr_inj c _ _ w
theorem B2_other (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb

/-! ## The proof data of both calls, and what rides beside the buffers -/

/-- No call has a prefetched table. -/
abbrev adm : (p : Fin 2) → (pcfgs (F := F) p).Adm := fun p => (cfgs p).toPCfg_adm

/-- Each call's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (R0 m) c
  | ⟨1, _⟩ => fun c => dat1 (R1 m) c

/-- No core owes another anything, so no pair carries a level. -/
abbrev noPairs : GSem nD τ sig → Finset Unit := fun _ => ∅
abbrev noLevel : GSem nD τ sig → Unit → ℕ := fun _ _ => 0

/-- Beside the buffers: the generator register at some state, and the core owing nothing. -/
abbrev quiet (c : Dev nD) : sProp 𝕄 :=
  iprop((∃ r, prngReg c r) ∗ ∃ W, owes (c : Thread nD τ) (0 : CellTallies nD τ sig Unit) W)

/-- With no table there is nothing to hold of one. -/
theorem noTables {c : Dev nD} {q : Fin 0 → PosShare TreeShare} {v : (Pipeline.Prefetch.none (sig := sig)).Contents (Elt F)} :
    ⊢ (Pipeline.prefHeld (Ix := Unit) (Name := ℕ) (U := UR sig nD τ) (Lvl := ℕ) Pipeline.Prefetch.none c q v : sProp 𝕄) := by
  unfold Pipeline.prefHeld; rw [show (Finset.univ : Finset (Fin 0)) = ∅ from rfl, BI.bigSep_empty]; iempintro

/-- A core that owes nothing owes, in particular, what proof data that owe nothing say before a point; -/
theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, H⟩; iexists W; isplitr; · ipureintro; exact fun _ _ => Or.inl trivial
  iexact H

/-- and the other way round. -/
theorem owes_out {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, H⟩; iexists W; iexact H

end Cert.KernelIdeal.RowMin

end
-- ==== Proof.KernelIdeal.Seg0.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.KernelIdeal.Between
set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call as a segment of @main -/

variable (m : (ℓ : Loc nD τ sig) → Buf (Elt F) ℓ)
-- the library's entailments are stated over the pinned configuration, which unifies with the printed one only
-- when unification may unfold plain definitions in a metavariable's type
set_option backward.isDefEq.respectTransparency.types false in
/-- The first call as a segment of @main: entered with every unscoped buffer at `B0`, left with them at `B1`. Its arrays are
    taken out of the unscoped buffers at entry and put back, at what the write-backs left, at exit; the generator register
    goes into the kernel's invariant and comes back; the core owes nothing and the kernel has no semaphore of its own. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (R0 m) c).loose
  hwaits := Pipeline.hwaits_of_owed_zero _ _ _ _ noPairs noLevel 0 fun _ _ => rfl
  pre c := iprop(StableHlo.held (c : Thread nD τ) (Pipeline.ucRefs τ sig) (B0 m c) ∗ quiet (F := F) c)
  post c := iprop(StableHlo.held (c : Thread nD τ) (Pipeline.ucRefs τ sig) (B1 m c) ∗ quiet (F := F) c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R0 m c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · exact noTables
    isplitl [Howes]; · iapply (owes_in (pdats m 0 c) 0 rfl rfl); iexact Howes
    isplitl [Hgen]; · iexact Hgen
    iexact Hrest
  hin c := by
    refine .trans ?_ (hin0 (R0 m) c)
    unfold Pipeline.ΦA
    iintro ⟨Hgen, -, Hsc⟩
    isplitl [Hsc]; · iexact Hsc
    iexact Hgen
  hout c := by
    rw [Pipeline.ownSems0_none]
    refine (hout0 (R0 m) c).trans ?_
    unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R0 m c) (R1 m c) ((pdats m 0 c).arrAt · cfg0.N) (fun w => (B1_arr m c w).symm)
      (fun b hb => B1_other m c b fun w e => hb (Finset.mem_image.mpr ⟨w, Finset.mem_univ _, e⟩))
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    iapply (owes_out (pdats m 0 c) (Fin.last _) rfl); iexact Howes

end Cert.KernelIdeal.RowMin

end
-- ==== Proof.KernelIdeal.Seg1.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.KernelIdeal.Between
set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call as a segment of @main -/

variable (m : (ℓ : Loc nD τ sig) → Buf (Elt F) ℓ)
-- the library's entailments are stated over the pinned configuration, which unifies with the printed one only
-- when unification may unfold plain definitions in a metavariable's type
set_option backward.isDefEq.respectTransparency.types false in
/-- The second call as a segment of @main: entered with every unscoped buffer at `B1`, left with them at `B2`. Its arrays are
    taken out of the unscoped buffers at entry and put back, at what the write-backs left, at exit; the generator register
    goes into the kernel's invariant and comes back; the core owes nothing and the kernel has no semaphore of its own. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (R1 m) c).loose
  hwaits := Pipeline.hwaits_of_owed_zero _ _ _ _ noPairs noLevel 1 fun _ _ => rfl
  pre c := iprop(StableHlo.held (c : Thread nD τ) (Pipeline.ucRefs τ sig) (B1 m c) ∗ quiet (F := F) c)
  post c := iprop(StableHlo.held (c : Thread nD τ) (Pipeline.ucRefs τ sig) (B2 m c) ∗ quiet (F := F) c)
  X c := iprop(∃ r, prngReg c r)
  Y c := iprop(∃ r, prngReg c r)
  Z c := Pipeline.unscopedRest (Ix := Unit) (Name := ℕ) (U := UR sig nD τ) (Lvl := ℕ) spec1 c (R1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R1 m c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · exact noTables
    isplitl [Howes]; · iapply (owes_in (pdats m 1 c) 0 rfl rfl); iexact Howes
    isplitl [Hgen]; · iexact Hgen
    iexact Hrest
  hin c := by
    refine .trans ?_ (hin1 (R1 m) c)
    unfold Pipeline.ΦA
    iintro ⟨Hgen, -, Hsc⟩
    isplitl [Hsc]; · iexact Hsc
    iexact Hgen
  hout c := by
    rw [Pipeline.ownSems0_none]
    refine (hout1 (R1 m) c).trans ?_
    unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R1 m c) (R2 m c) ((pdats m 1 c).arrAt · cfg1.N) (fun w => (B2_arr m c w).symm)
      (fun b hb => B2_other m c b fun w e => hb (Finset.mem_image.mpr ⟨w, Finset.mem_univ _, e⟩))
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    iapply (owes_out (pdats m 1 c) (Fin.last _) rfl); iexact Howes

end Cert.KernelIdeal.RowMin

end
-- ==== Proof.KernelIdeal.Run.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.KernelIdeal.Seg0
import proofs.«128316_j11218454577160_1_alg».proof.Proof.KernelIdeal.Seg1
set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: the two calls, then the host's means -/

variable (m : (ℓ : Loc nD τ sig) → Buf (Elt F) ℓ) (ρ : Dev nD → PrngReg)

theorem hostOps2_fresh : (hostOps2 : List (HloOp τ sig (Elt F))).Forall fun op => op.fresh = ∅ := by
  simp only [List.Forall]; repeat' constructor

/-- The host's fifteen operations, run over the unscoped buffers from `B2`. -/
abbrev means : Pipeline.HostSeg (Name := ℕ) (U := UR sig nD τ) (pcfgs (F := F)) defs₀ Variants.none noPairs noLevel :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (B2 m) (quiet (F := F))

/-- @main's three items, in order. -/
abbrev items : List (Pipeline.Seg (pcfgs (F := F)) adm (pdats m) () defs₀ Variants.none noPairs noLevel) :=
  [.region (reg0 m), .region (reg1 m), .host (means m)]

theorem main_items (c : Dev nD) : main (F := F) c = Pipeline.Seg.run (items m) := (main_chain c).trans (by chain_rfl)

/-! ## The launch -/

-- the launch theorem's implicit arguments are found by unifying its conclusion with this one, which takes unfolding plain
-- definitions in a metavariable's type
set_option backward.isDefEq.respectTransparency.types false in
/-- From any memory with zero counters every weakly fair execution of @main terminates, nothing faulting, and every
    unscoped buffer of every core ends at `B3`: the arguments as launched, the two outputs at what their calls' write-backs
    left, the result at the host operations' value of them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ Variants.none noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ quiet (F := F) c))
    (Tₙ := fun c => iprop(StableHlo.held (c : Thread nD τ) (Pipeline.ucRefs τ sig) (B3 m c) ∗ ∃ r, prngReg c r))
    (hch := ⟨fun _ => .rfl, fun _ => .rfl, fun _ => .rfl, fun c => by
      show iprop(StableHlo.held (c : Thread nD τ) (Pipeline.ucRefs τ sig) (B3 m c) ∗ quiet (F := F) c) ⊢ _
      iintro ⟨Hh, Hgen, Howes⟩
      isplitr [Howes]
      · isplitl [Hh]; · iexact Hh
        iexact Hgen
      iexact Howes⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, Howes, -, Hgen, -⟩, -⟩
      imodintro
      isplitl [Hh]; · iexact Hh
      isplitl [Hgen]; · iexists _; iexact Hgen
      iexists ∅; iexact Howes)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-! ## Reading the end -/

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The references the host's operations write: the averages' intermediate and final buffers. -/
abbrev meansWrite : List (Ref sig .tc) := [main_cst, main_v2, main_cst_0, main_v3, main_v4, main_cst_1, main_v5, main_cst_2, main_v6, main_v7, main_v8, main_cst_3, main_v9, main_cst_4, main_v10]

theorem hostOps2_writes : (hostOps2 : List (HloOp τ sig (Elt F))).Forall fun op => op.writes ⊆ (meansWrite.map (Proc.devRef (τ := τ) .tc)).toFinset := by
  simp only [List.Forall, StableHlo.nullary_writes, StableHlo.unary_writes, StableHlo.binary_writes, Finset.singleton_subset_iff, List.mem_toFinset]
  repeat' apply And.intro
  all_goals exact List.mem_map_of_mem (by decide)

/-- The host's operations leave every buffer they do not write. -/
theorem B3_keeps (c : Dev nD) (r : Ref sig .tc) (h : r ∉ meansWrite) : B3 m c r = B2 m c r :=
  StableHlo.after_of_writes_sub hostOps2 _ hostOps2_writes h

/-- The first argument ends as launched: the second call stages it as its queries and the first as its keys, both
    read-only, and the host's operations do not write it. -/
theorem B3_arg0 (c : Dev nD) : B3 m c main_arg0 = m ((c : Thread nD τ).loc main_arg0) :=
  calc B3 m c main_arg0
    _ = B2 m c main_arg0 := B3_keeps m c main_arg0 (by decide)
    _ = B1 m c main_arg0 := (B2_arr m c 0).trans (((dat1 (R1 m) c).arrAt_in 0 rfl _).trans (A_eq1 (R1 m) c 0))
    _ = B0 m c main_arg0 := (B1_arr m c 1).trans (((dat0 (R0 m) c).arrAt_in 1 rfl _).trans (A_eq0 (R0 m) c 1))
    _ = m ((c : Thread nD τ).loc main_arg0) := rfl

/-- The second argument likewise. -/
theorem B3_arg1 (c : Dev nD) : B3 m c main_arg1 = m ((c : Thread nD τ).loc main_arg1) :=
  calc B3 m c main_arg1
    _ = B2 m c main_arg1 := B3_keeps m c main_arg1 (by decide)
    _ = B1 m c main_arg1 := (B2_arr m c 1).trans (((dat1 (R1 m) c).arrAt_in 1 rfl _).trans (A_eq1 (R1 m) c 1))
    _ = B0 m c main_arg1 := (B1_arr m c 0).trans (((dat0 (R0 m) c).arrAt_in 0 rfl _).trans (A_eq0 (R0 m) c 0))
    _ = m ((c : Thread nD τ).loc main_arg1) := rfl

/-- THE FRAME: every weakly fair execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_arg0 m c), (h c _ (mem_uc main_arg1 (by decide))).trans (B3_arg1 m c)⟩)
    (run_all m ρ)

end Cert.KernelIdeal.RowMin

end
-- ==== Proof.KernelIdeal.Result.lean ====
import proofs.«128316_j11218454577160_1_alg».proof.Proof.Gen.KernelIdeal.Launch
import proofs.«128316_j11218454577160_1_alg».proof.Proof.Gen.KernelIdeal.Skeleton
import proofs.«128316_j11218454577160_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«128316_j11218454577160_1_alg».proof.Proof.KernelIdeal.Run
import Idealize.ShloMosaic.Lib.StableHlo.Run
set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The result: the mean of the two outputs' row means

The host's fifteen operations compute, from the two [2, 8192] outputs a and b,
(Σ_batch (Σ_row a / 8192 + Σ_row b / 8192)) / 2. Both programs end with these same operations, so they are kept
as ONE function of the two arrays and never opened. -/

variable (m : (ℓ : Loc nD τ sig) → Buf (Elt F) ℓ)

/-- The host's operations as a function of the two outputs. -/
def meanOfMeans (a b : (⟨S2x8192, .f32⟩ : BufTy).Contents (Elt F)) : (⟨S_, .f32⟩ : BufTy).Contents (Elt F) :=
  Host.divf
    (Host.reduceAdd
      (addf
        (Host.divf (Host.reduceAdd a (constant S_ .f32 0x00000000#32) reducesTo_S2x8192_S2_d1 h_S_)
          (broadcastInDim S2 ![] bcast_S_S2 (constant S_ .f32 0x46000000#32)))
        (Host.divf (Host.reduceAdd b (constant S_ .f32 0x00000000#32) reducesTo_S2x8192_S2_d1 h_S_)
          (broadcastInDim S2 ![] bcast_S_S2 (constant S_ .f32 0x46000000#32))))
      (constant S_ .f32 0x00000000#32) reducesTo_S2_S_d0 h_S_)
    (constant S_ .f32 0x40000000#32)

/-- The result buffer at the end is that function of the two outputs as the calls left them. -/
theorem B3_result (c : Dev nD) : B3 m c main_v10 = meanOfMeans (F := F) (B2 m c main_v0) (B2 m c main_v1) := by
  show StableHlo.after hostOps2 (B2 m c) (Proc.devRef .tc main_v10) = _
  unfold meanOfMeans
  after_results

/-- After both calls the first output holds what the first call's write-backs left: the second call does not touch it. -/
theorem B2_out0 (c : Dev nD) : B2 m c main_v0 = (dat0 (R0 m) c).arrAt 2 cfg0.N :=
  (B2_other m c main_v0 (by decide)).trans (B1_arr m c 2)

/-- And the second output what the second call's left. -/
theorem B2_out1 (c : Dev nD) : B2 m c main_v1 = (dat1 (R1 m) c).arrAt 2 cfg1.N := B2_arr m c 2

/-- The second call finds the arguments as launched: the first call only reads them. -/
theorem R1_arg0 (c : Dev nD) : R1 m c main_arg0 = m ((c : Thread nD τ).loc main_arg0) :=
  (B1_arr m c 1).trans (((dat0 (R0 m) c).arrAt_in 1 rfl _).trans (A_eq0 (R0 m) c 1))
theorem R1_arg1 (c : Dev nD) : R1 m c main_arg1 = m ((c : Thread nD τ).loc main_arg1) :=
  (B1_arr m c 0).trans (((dat0 (R0 m) c).arrAt_in 0 rfl _).trans (A_eq0 (R0 m) c 0))

end Cert.KernelIdeal.RowMin

end
-- ==== Proof.PairDist.lean ====
/-
  The pairwise distance of two batched point sets, as the kernel and the reference both compute it:
  for point sets X : [2, n, 3] and Y : [2, m, 3] (batch, point, coordinate),

      dist X Y b i j = √ max (‖X b i‖² + ‖Y b j‖² − 2·⟨X b i, Y b j⟩, 0),

  over the extended reals, the 2 and the 0 kept as the f32 words both programs carry (the same word on both sides
  is never evaluated). The distance is symmetric in its two point sets, since + and · commute there. A row's
  minimum over the other set is a fold of min from +∞, which is known by its lower bounds; and a minimum over
  all m = 16·512 keys is the minimum over the sixteen key tiles of each tile's minimum.
  Library imports only.
-/
import Idealize.ShloMosaic.PureOps.Ideal
import Idealize.ShloMosaic.Lib.ValueIdx
import Mathlib.Data.Finset.Fold
import Mathlib.Algebra.BigOperators.Group.Finset.Basic

noncomputable section

namespace Cert.PairDist

open Idealize.ShloMosaic Idealize.ShloMosaic.ValueIdx

/-- A batched point set: batch, point, coordinate. -/
abbrev Pts (n : Nat) : Type := (⟨3, ![2, n, 3]⟩ : Shape).Idx → EReal

/-- The f32 words 2.0 and 0.0 read at the extended reals. -/
abbrev two : EReal := Ideal.ofBits .f32 0x40000000#32
abbrev zero : EReal := Ideal.ofBits .f32 0x00000000#32

/-- The squared norm of point `i` of batch `b`. -/
def sq {n : Nat} (X : Pts n) (b : Fin 2) (i : Fin n) : EReal := ∑ d : Fin 3, X (ix3 b i d) * X (ix3 b i d)

/-- The inner product of point `i` of `X` and point `j` of `Y`, in batch `b`. -/
def dot {n m : Nat} (X : Pts n) (Y : Pts m) (b : Fin 2) (i : Fin n) (j : Fin m) : EReal :=
  ∑ d : Fin 3, X (ix3 b i d) * Y (ix3 b j d)

/-- The distance from point `i` of `X` to point `j` of `Y`, by the squared-norm expansion, clamped at zero. -/
def dist {n m : Nat} (X : Pts n) (Y : Pts m) (b : Fin 2) (i : Fin n) (j : Fin m) : EReal :=
  Ideal.sqrt (max (sq X b i + sq Y b j - two * dot X Y b i j) zero)

theorem dot_comm {n m : Nat} (X : Pts n) (Y : Pts m) (b : Fin 2) (i : Fin n) (j : Fin m) : dot X Y b i j = dot Y X b j i :=
  Finset.sum_congr rfl fun d _ => mul_comm _ _

/-- The distance does not depend on which set is called the queries. -/
theorem dist_symm {n m : Nat} (X : Pts n) (Y : Pts m) (b : Fin 2) (i : Fin n) (j : Fin m) : dist X Y b i j = dist Y X b j i := by
  unfold dist; rw [add_comm (sq X b i), dot_comm]

/-- The distance reads its point sets only at the two points: sets that agree there give the same distance. -/
theorem dist_congr {n m n' m' : Nat} (X : Pts n) (Y : Pts m) (X' : Pts n') (Y' : Pts m') (b : Fin 2)
    (i : Fin n) (j : Fin m) (i' : Fin n') (j' : Fin m')
    (hX : ∀ d : Fin 3, X (ix3 b i d) = X' (ix3 b i' d)) (hY : ∀ d : Fin 3, Y (ix3 b j d) = Y' (ix3 b j' d)) :
    dist X Y b i j = dist X' Y' b i' j' := by
  unfold dist sq dot
  simp only [hX, hY]

/-- A fold of `min` from +∞ over all of a finite index type is known by its lower bounds. -/
theorem le_fold_min_top {ι : Type} [Fintype ι] (f : ι → EReal) (c : EReal) :
    c ≤ (Finset.univ : Finset ι).fold min ⊤ f ↔ ∀ k, c ≤ f k := by
  rw [Finset.le_fold_min]
  exact ⟨fun h k => h.2 k (Finset.mem_univ k), fun h => ⟨le_top, fun k _ => h k⟩⟩

/-- Two extended reals with the same lower bounds are equal. -/
theorem eq_of_le_iff {x y : EReal} (h : ∀ c : EReal, c ≤ x ↔ c ≤ y) : x = y :=
  le_antisymm ((h x).mp le_rfl) ((h y).mpr le_rfl)

/-- Key `j` of 8192 is key `j % 512` of tile `j / 512`: a property of every key is one of every key of every tile. -/
theorem forall_key_iff (P : Fin 8192 → Prop) :
    (∀ j : Fin 8192, P j) ↔ ∀ (J : Fin 16) (jj : Fin 512), P ⟨J.val * 512 + jj.val, by have := J.isLt; have := jj.isLt; omega⟩ := by
  constructor
  · intro h J jj; exact h _
  · intro h j
    have := h ⟨j.val / 512, by have := j.isLt; omega⟩ ⟨j.val % 512, Nat.mod_lt _ (by norm_num)⟩
    have e : (⟨j.val / 512 * 512 + j.val % 512, by have := j.isLt; omega⟩ : Fin 8192) = j := Fin.ext (Nat.div_add_mod' j.val 512)
    rwa [e] at this

end Cert.PairDist

end
-- ==== Proof.KernelIdeal.TileOps.lean ====
import proofs.«128316_j11218454577160_1_alg».proof.Proof.Gen.KernelIdeal.Skeleton
import proofs.«128316_j11218454577160_1_alg».proof.Proof.PairDist
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Cert.PairDist

/-! # The operations of one grid point read at an index, over the extended reals

Both calls run the same body on tiles of the same shapes, so what its operations compute at an index is said once:
the two shape casts and the two broadcasts that lay the squared norms out over the [2, 1024, 512] tile, the lane sums
and the lane minimum, the batched matrix product of a query tile and a key tile, and the distance's pieces. -/

/-! ## The layout operations at explicit coordinates -/

section Layout
variable {α : Type}

/-- An `[a, n]` array cast to `[a, n, 1]` reads, at `(b, r, u)`, the operand at `(b, r)`, whatever the unit coordinate. -/
theorem shapeCast_ab_ab1_apply {a n : ℕ} (x : (⟨2, ![a, n]⟩ : Shape).Idx → α)
    (h : (⟨2, ![a, n]⟩ : Shape).ShapeCasts ⟨3, ![a, n, 1]⟩) (b : Fin a) (r : Fin n) (u : Fin 1) :
    shapeCast ⟨3, ![a, n, 1]⟩ x h (ix3 b r u) = x (ix2 b r) :=
  shapeCast_apply x h _ _ (by
    have hu : u.val = 0 := by omega
    rw [Shape.rowMajor_val_three, Shape.rowMajor_val_two]
    show b.val * n + r.val = (b.val * n + r.val) * 1 + u.val
    rw [hu, Nat.mul_one, Nat.add_zero])

/-- An `[a, n]` array cast to `[a, 1, n]` reads, at `(b, u, r)`, the operand at `(b, r)`, whatever the unit coordinate. -/
theorem shapeCast_ab_a1b_apply {a n : ℕ} (x : (⟨2, ![a, n]⟩ : Shape).Idx → α)
    (h : (⟨2, ![a, n]⟩ : Shape).ShapeCasts ⟨3, ![a, 1, n]⟩) (b : Fin a) (u : Fin 1) (r : Fin n) :
    shapeCast ⟨3, ![a, 1, n]⟩ x h (ix3 b u r) = x (ix2 b r) :=
  shapeCast_apply x h _ _ (by
    have hu : u.val = 0 := by omega
    rw [Shape.rowMajor_val_three, Shape.rowMajor_val_two]
    show b.val * n + r.val = (b.val * 1 + u.val) * n + r.val
    rw [hu, Nat.mul_one, Nat.add_zero])

/-- An `[a, n, 1]` array broadcast to `[a, n, m]` reads, at `(b, r, c)`, the operand's one entry of row `(b, r)`. -/
theorem broadcastTo_ab1_abc_apply {a n m : ℕ} (v : (⟨3, ![a, n, 1]⟩ : Shape).Idx → α)
    (h : (⟨3, ![a, n, 1]⟩ : Shape).Broadcasts ⟨3, ![a, n, m]⟩) (b : Fin a) (r : Fin n) (c : Fin m) :
    broadcastTo ⟨3, ![a, n, m]⟩ v h (ix3 b r c) = v (ix3 b r (0 : Fin 1)) := by
  refine broadcastTo_apply v h (ix3 b r c) (ix3 b r (0 : Fin 1)) fun ax => ?_
  match ax with
  | ⟨0, _⟩ =>
    show b.val = if a = 1 then 0 else b.val
    split
    · have := b.isLt; omega
    · rfl
  | ⟨1, _⟩ =>
    show r.val = if n = 1 then 0 else r.val
    split
    · have := r.isLt; omega
    · rfl
  | ⟨2, _⟩ =>
    show (0 : ℕ) = if (1 : ℕ) = 1 then 0 else c.val
    rw [if_pos rfl]

/-- An `[a, 1, m]` array broadcast to `[a, n, m]` reads, at `(b, r, c)`, the operand's one row of batch `b` at `c`. -/
theorem broadcastTo_a1c_abc_apply {a n m : ℕ} (v : (⟨3, ![a, 1, m]⟩ : Shape).Idx → α)
    (h : (⟨3, ![a, 1, m]⟩ : Shape).Broadcasts ⟨3, ![a, n, m]⟩) (b : Fin a) (r : Fin n) (c : Fin m) :
    broadcastTo ⟨3, ![a, n, m]⟩ v h (ix3 b r c) = v (ix3 b (0 : Fin 1) c) := by
  refine broadcastTo_apply v h (ix3 b r c) (ix3 b (0 : Fin 1) c) fun ax => ?_
  match ax with
  | ⟨0, _⟩ =>
    show b.val = if a = 1 then 0 else b.val
    split
    · have := b.isLt; omega
    · rfl
  | ⟨1, _⟩ =>
    show (0 : ℕ) = if (1 : ℕ) = 1 then 0 else r.val
    rw [if_pos rfl]
  | ⟨2, _⟩ =>
    show c.val = if m = 1 then 0 else c.val
    split
    · have := c.isLt; omega
    · rfl

end Layout

/-! ## The reductions over the last axis -/

/-- The sum over the three coordinates of a `[2, n, 3]` array, at `(b, r)`. -/
theorem laneSum_apply {n : ℕ} (v : FVec Ideal ⟨3, ![2, n, 3]⟩ .f32) (acc : BitVec 32)
    (h : (⟨3, ![2, n, 3]⟩ : Shape).Reduces [2] ⟨2, ![2, n]⟩) (hφ : FKind.Formats .f32)
    (hacc : acc = FKind.add.neutral .f32 hφ) (b : Fin 2) (r : Fin n) :
    multiReduction .add [2] ⟨2, ![2, n]⟩ v acc h hφ hacc (ix2 b r) = ∑ d : Fin 3, v (ix3 b r d) := by
  refine (Ideal.multiReduction_add_single v acc h hφ hacc (ix2 b r)).trans ?_
  refine Finset.sum_congr rfl fun d _ => congrArg v ?_
  funext ax
  match ax with
  | ⟨0, _⟩ => rfl
  | ⟨1, _⟩ => rfl
  | ⟨2, _⟩ => rfl

/-- The f32 word of +∞ reads ⊤. -/
theorem ofBits_pinf_f32 : Ideal.ofBits .f32 0x7F800000#32 = ⊤ := by simp [Ideal.ofBits, Ideal.ieee]

/-- The minimum over the last axis of a `[2, n, m]` array, at `(b, r)`: the fold of `min` from +∞ over that row. -/
theorem laneMin_apply {n m : ℕ} (v : FVec Ideal ⟨3, ![2, n, m]⟩ .f32)
    (h : (⟨3, ![2, n, m]⟩ : Shape).Reduces [2] ⟨2, ![2, n]⟩) (hφ : FKind.Formats .f32)
    (hacc : (0x7F800000#32 : BitVec 32) = FKind.minimumf.neutral .f32 hφ) (b : Fin 2) (r : Fin n) :
    multiReduction .minimumf [2] ⟨2, ![2, n]⟩ v 0x7F800000#32 h hφ hacc (ix2 b r)
      = (Finset.univ : Finset (Fin m)).fold min ⊤ (fun jj => v (ix3 b r jj)) := by
  refine (multiReduction_minimumf_eq_fold v _ h hφ hacc (ix2 b r)).trans ?_
  refine (h.fold_filter_drop_single _ _ v (ix2 b r)).trans ?_
  have hf : (v ∘ h.lift (ix2 b r)) = fun jj : Fin m => v (ix3 b r jj) :=
    funext fun jj => congrArg v (funext fun ax => match ax with
      | ⟨0, _⟩ => rfl
      | ⟨1, _⟩ => rfl
      | ⟨2, _⟩ => rfl)
  rw [hf]
  show (Finset.univ : Finset (Fin m)).fold min (Ideal.ofBits .f32 0x7F800000#32) _ = _
  rw [ofBits_pinf_f32]

/-! ## The batched matrix product at an index

The product contracts the coordinate axis (2 of both operands), keeps the point axes (1 and 1) and batches over
axis 0: its element at `(b, r, jj)` into a zero accumulator is the inner product of query row `r` and key row
`jj` of batch `b`. First where the product reads each operand, axis by axis. -/

theorem lhs_dot_0 (i : S2x1024x512.Idx) (q : Cert.KernelIdeal.dot_S2x1024x3_S2x512x3_S2x1024x512_2_2_1_1_0_0.contr.Idx) :
    (Cert.KernelIdeal.dot_S2x1024x3_S2x512x3_S2x1024x512_2_2_1_1_0_0.lhsIdx i q 0).val = (i 0).val := by
  unfold DotDims.lhsIdx
  rw [dif_pos (show (0 : Fin S2x1024x3.rank) ∈ Cert.KernelIdeal.dot_S2x1024x3_S2x512x3_S2x1024x512_2_2_1_1_0_0.lhsBatch by decide)]
  rfl
theorem lhs_dot_1 (i : S2x1024x512.Idx) (q : Cert.KernelIdeal.dot_S2x1024x3_S2x512x3_S2x1024x512_2_2_1_1_0_0.contr.Idx) :
    (Cert.KernelIdeal.dot_S2x1024x3_S2x512x3_S2x1024x512_2_2_1_1_0_0.lhsIdx i q 1).val = (i 1).val := by
  unfold DotDims.lhsIdx
  rw [dif_neg (show ¬(1 : Fin S2x1024x3.rank) ∈ Cert.KernelIdeal.dot_S2x1024x3_S2x512x3_S2x1024x512_2_2_1_1_0_0.lhsBatch by decide), dif_pos (show (1 : Fin S2x1024x3.rank) ∈ Cert.KernelIdeal.dot_S2x1024x3_S2x512x3_S2x1024x512_2_2_1_1_0_0.lhsNonContracting by decide)]
  rfl
theorem lhs_dot_2 (i : S2x1024x512.Idx) (q : Cert.KernelIdeal.dot_S2x1024x3_S2x512x3_S2x1024x512_2_2_1_1_0_0.contr.Idx) :
    (Cert.KernelIdeal.dot_S2x1024x3_S2x512x3_S2x1024x512_2_2_1_1_0_0.lhsIdx i q 2).val = (q ⟨0, by decide⟩).val :=
  Cert.KernelIdeal.dot_S2x1024x3_S2x512x3_S2x1024x512_2_2_1_1_0_0.lhsIdx_val_of_single rfl i q
theorem rhs_dot_0 (i : S2x1024x512.Idx) (q : Cert.KernelIdeal.dot_S2x1024x3_S2x512x3_S2x1024x512_2_2_1_1_0_0.contr.Idx) :
    (Cert.KernelIdeal.dot_S2x1024x3_S2x512x3_S2x1024x512_2_2_1_1_0_0.rhsIdx i q 0).val = (i 0).val := by
  unfold DotDims.rhsIdx
  rw [dif_pos (show (0 : Fin S2x512x3.rank) ∈ Cert.KernelIdeal.dot_S2x1024x3_S2x512x3_S2x1024x512_2_2_1_1_0_0.rhsBatch by decide)]
  rfl
theorem rhs_dot_1 (i : S2x1024x512.Idx) (q : Cert.KernelIdeal.dot_S2x1024x3_S2x512x3_S2x1024x512_2_2_1_1_0_0.contr.Idx) :
    (Cert.KernelIdeal.dot_S2x1024x3_S2x512x3_S2x1024x512_2_2_1_1_0_0.rhsIdx i q 1).val = (i 2).val := by
  unfold DotDims.rhsIdx
  rw [dif_neg (show ¬(1 : Fin S2x512x3.rank) ∈ Cert.KernelIdeal.dot_S2x1024x3_S2x512x3_S2x1024x512_2_2_1_1_0_0.rhsBatch by decide), dif_pos (show (1 : Fin S2x512x3.rank) ∈ Cert.KernelIdeal.dot_S2x1024x3_S2x512x3_S2x1024x512_2_2_1_1_0_0.rhsNonContracting by decide)]
  rfl
theorem rhs_dot_2 (i : S2x1024x512.Idx) (q : Cert.KernelIdeal.dot_S2x1024x3_S2x512x3_S2x1024x512_2_2_1_1_0_0.contr.Idx) :
    (Cert.KernelIdeal.dot_S2x1024x3_S2x512x3_S2x1024x512_2_2_1_1_0_0.rhsIdx i q 2).val = (q ⟨0, by decide⟩).val :=
  Cert.KernelIdeal.dot_S2x1024x3_S2x512x3_S2x1024x512_2_2_1_1_0_0.rhsIdx_val_of_single rfl i q

/-- The product of a query tile and a key tile into a zero accumulator, at `(b, r, jj)`: the sum over the three
    coordinates of the products. -/
theorem tileDot_apply {φ₁ φ₂ : FTy} (x : FVec Ideal S2x1024x3 φ₁) (y : FVec Ideal S2x512x3 φ₂) (b : Fin 2) (r : Fin 1024) (jj : Fin 512) :
    matmul (F := Ideal) Cert.KernelIdeal.dot_S2x1024x3_S2x512x3_S2x1024x512_2_2_1_1_0_0 none x y (constant S2x1024x512 .f32 0x00000000#32) (ix3 b r jj)
      = ∑ d : Fin 3, x (ix3 b r d) * y (ix3 b jj d) := by
  refine (Ideal.matmul_constant_zero_apply Cert.KernelIdeal.dot_S2x1024x3_S2x512x3_S2x1024x512_2_2_1_1_0_0 none x y (ix3 b r jj)).trans ?_
  rw [← Equiv.sum_comp (contrEquiv1 Cert.KernelIdeal.dot_S2x1024x3_S2x512x3_S2x1024x512_2_2_1_1_0_0 3 rfl rfl).symm]
  refine Finset.sum_congr rfl fun d _ => ?_
  have hk := contrEquiv1_symm_val Cert.KernelIdeal.dot_S2x1024x3_S2x512x3_S2x1024x512_2_2_1_1_0_0 3 rfl rfl d
  have el : Cert.KernelIdeal.dot_S2x1024x3_S2x512x3_S2x1024x512_2_2_1_1_0_0.lhsIdx (ix3 b r jj) ((contrEquiv1 Cert.KernelIdeal.dot_S2x1024x3_S2x512x3_S2x1024x512_2_2_1_1_0_0 3 rfl rfl).symm d) = ix3 b r d := funext fun a => Fin.ext (by
    match a with
    | ⟨0, _⟩ => exact lhs_dot_0 _ _
    | ⟨1, _⟩ => exact lhs_dot_1 _ _
    | ⟨2, _⟩ => exact (lhs_dot_2 _ _).trans hk)
  have er : Cert.KernelIdeal.dot_S2x1024x3_S2x512x3_S2x1024x512_2_2_1_1_0_0.rhsIdx (ix3 b r jj) ((contrEquiv1 Cert.KernelIdeal.dot_S2x1024x3_S2x512x3_S2x1024x512_2_2_1_1_0_0 3 rfl rfl).symm d) = ix3 b jj d := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-! ## The pieces of the distance tile at an index -/

/-- The squared norms of the rows of a `[2, n, 3]` point set, spread along a new last axis of `m`. -/
theorem sqRow_apply {n m : ℕ} (X : FVec Ideal ⟨3, ![2, n, 3]⟩ .f32) (acc : BitVec 32)
    (h : (⟨3, ![2, n, 3]⟩ : Shape).Reduces [2] ⟨2, ![2, n]⟩) (hφ : FKind.Formats .f32) (hacc : acc = FKind.add.neutral .f32 hφ)
    (hc : (⟨2, ![2, n]⟩ : Shape).ShapeCasts ⟨3, ![2, n, 1]⟩) (hb : (⟨3, ![2, n, 1]⟩ : Shape).Broadcasts ⟨3, ![2, n, m]⟩)
    (b : Fin 2) (r : Fin n) (c : Fin m) :
    broadcastTo ⟨3, ![2, n, m]⟩ (shapeCast ⟨3, ![2, n, 1]⟩ (multiReduction .add [2] ⟨2, ![2, n]⟩ (mulf X X) acc h hφ hacc) hc) hb (ix3 b r c)
      = sq (n := n) X b r := by
  refine (broadcastTo_ab1_abc_apply _ hb b r c).trans ?_
  refine (shapeCast_ab_ab1_apply _ hc b r 0).trans ?_
  exact laneSum_apply (mulf X X) acc h hφ hacc b r

/-- The squared norms of the rows of a `[2, m, 3]` point set, spread along a new middle axis of `n`. -/
theorem sqCol_apply {n m : ℕ} (Y : FVec Ideal ⟨3, ![2, m, 3]⟩ .f32) (acc : BitVec 32)
    (h : (⟨3, ![2, m, 3]⟩ : Shape).Reduces [2] ⟨2, ![2, m]⟩) (hφ : FKind.Formats .f32) (hacc : acc = FKind.add.neutral .f32 hφ)
    (hc : (⟨2, ![2, m]⟩ : Shape).ShapeCasts ⟨3, ![2, 1, m]⟩) (hb : (⟨3, ![2, 1, m]⟩ : Shape).Broadcasts ⟨3, ![2, n, m]⟩)
    (b : Fin 2) (r : Fin n) (c : Fin m) :
    broadcastTo ⟨3, ![2, n, m]⟩ (shapeCast ⟨3, ![2, 1, m]⟩ (multiReduction .add [2] ⟨2, ![2, m]⟩ (mulf Y Y) acc h hφ hacc) hc) hb (ix3 b r c)
      = sq (n := m) Y b c := by
  refine (broadcastTo_a1c_abc_apply _ hb b r c).trans ?_
  refine (shapeCast_ab_a1b_apply _ hc b 0 c).trans ?_
  exact laneSum_apply (mulf Y Y) acc h hφ hacc b c

/-- The pointwise part of the distance: from the two spread squared norms `A`, `B` and the product `M`, the element
    is √ max (A + B − 2·M, 0). -/
theorem elem_apply {s : Shape} (A B M : FVec Ideal s .f32) (i : s.Idx) :
    sqrt (maximumf (subf (addf A B) (mulf (broadcast s (Scalar.ofBits .f32 0x40000000#32)) M))
      (broadcast s (Scalar.ofBits .f32 0x00000000#32))) i = Ideal.sqrt (max (A i + B i - two * M i) zero) := rfl

/-- The last step of the point: the row minimum of a tile `V` of distances folded into the scratch, by its lower bounds. -/
theorem minStep_le_iff (V : FVec Ideal S2x1024x512 .f32) (s : FVec Ideal S2x1024 .f32)
    (h1 : S2x1024.ShapeCasts S2x1024) (h2 : S2x1024x512.Reduces [2] S2x1024) (hφ : FKind.Formats .f32)
    (hacc : (0x7F800000#32 : BitVec 32) = FKind.minimumf.neutral .f32 hφ) (b : Fin 2) (r : Fin 1024) (c : EReal) :
    c ≤ shapeCast S2x1024 (minimumf s (multiReduction .minimumf [2] S2x1024 V 0x7F800000#32 h2 hφ hacc)) h1 (ix2 b r)
      ↔ c ≤ s (ix2 b r) ∧ ∀ jj : Fin 512, c ≤ V (ix3 b r jj) := by
  rw [shapeCast_self, minimumf_apply, le_min_iff, laneMin_apply V h2 hφ hacc b r, le_fold_min_top]

end Cert.KernelIdeal.RowMin

end
-- ==== Proof.KernelIdeal.Tile0.lean ====
import proofs.«128316_j11218454577160_1_alg».proof.Proof.Gen.KernelIdeal.Skeleton
import proofs.«128316_j11218454577160_1_alg».proof.Proof.KernelIdeal.TileOps
import proofs.«128316_j11218454577160_1_alg».proof.Proof.PairDist
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Cert.PairDist
/-! # What one grid point of the first call computes, over the extended reals

For a query tile `q` : [2, 1024, 3], a key tile `k` : [2, 512, 3] and the scratch `s` : [2, 1024] as the point
finds it, the point leaves in the scratch, at batch `b` and row `r`, the minimum of `s b r` and of the distances
from query row `r` to the tile's 512 keys; known by its lower bounds. -/
/-! ## The two stored values -/

/-- The reset value is +∞ everywhere. -/
theorem reset0_apply (j : S2x1024.Idx) : k0_pay1 (F := Ideal) j = ⊤ := by
  unfold k0_pay1
  rw [shapeCast_self]
  exact ofBits_pinf_f32

/-- A lower bound of what the point leaves at (b, r) is one of the scratch's entry there and of every distance from
    query row r to a key of the tile. -/
theorem tile0_le_iff (q : Vec Ideal S2x1024x3 .f32) (k : Vec Ideal S2x512x3 .f32) (s : Vec Ideal S2x1024 .f32)
    (b : Fin 2) (r : Fin 1024) (c : EReal) :
    c ≤ k0_pay2 (F := Ideal) q k s (ix2 b r) ↔ c ≤ s (ix2 b r) ∧ ∀ jj : Fin 512, c ≤ dist (n := 1024) (m := 512) q k b r jj := by
  refine (minStep_le_iff _ s _ _ _ _ b r c).trans ?_
  refine and_congr_right' (forall_congr' fun jj => ?_)
  refine Eq.to_iff (congrArg (c ≤ ·) ?_)
  refine (elem_apply _ _ _ (ix3 b r jj)).trans ?_
  unfold Cert.PairDist.dist
  refine congrArg Ideal.sqrt (congrArg (max · zero) ?_)
  refine congr (congrArg HSub.hSub (congr (congrArg HAdd.hAdd ?_) ?_)) (congrArg (two * ·) ?_)
  · exact sqRow_apply (n := 1024) (m := 512) q _ _ _ _ _ _ b r jj
  · exact sqCol_apply (n := 1024) (m := 512) k _ _ _ _ _ _ b r jj
  · exact tileDot_apply _ _ b r jj

end Cert.KernelIdeal.RowMin

end
-- ==== Proof.KernelIdeal.Out0.lean ====
import proofs.«128316_j11218454577160_1_alg».proof.Proof.KernelIdeal.Data0
import proofs.«128316_j11218454577160_1_alg».proof.Proof.KernelIdeal.Tile0
import proofs.«128316_j11218454577160_1_alg».proof.Proof.PairDist
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Cert.PairDist
open Idealize.ShloMosaic.Pipeline (Dat)

/-! # What the first call leaves in its output array, over the extended reals

Output row i of batch b lies in query tile i / 1024, whose run of sixteen points ends at point 16·(i / 1024) + 15;
there the running minimum has met all sixteen key tiles, and the block written back holds, at row i % 1024, the
minimum over all 8192 keys of the distance from query i: known by its lower bounds. -/

/-- The index maps, decided once over the grid: point t is query tile t / 16 against key tile t % 16, and the
    output block is the query tile's. -/
theorem idx_facts0 : ∀ t : Fin cfg0.N,
    (cfg0.win 0).index t (0 : Fin 3) = 0 ∧ (cfg0.win 0).index t (1 : Fin 3) = t.val / 16 ∧ (cfg0.win 0).index t (2 : Fin 3) = 0
    ∧ (cfg0.win 1).index t (0 : Fin 3) = 0 ∧ (cfg0.win 1).index t (1 : Fin 3) = t.val % 16 ∧ (cfg0.win 1).index t (2 : Fin 3) = 0
    ∧ (cfg0.win 2).index t (0 : Fin 2) = 0 ∧ (cfg0.win 2).index t (1 : Fin 2) = t.val / 16 :=
  (by decide +kernel : ∀ t : Fin grid0.N, _)

/-- Key jj of key tile J, as a key of all 8192. -/
abbrev key0 (J : Fin 16) (jj : Fin 512) : Fin 8192 := ⟨J.val * 512 + jj.val, by have := J.isLt; have := jj.isLt; omega⟩

section
variable (V : (c : Dev nD) → (b : Ref sig .tc) → Buf (Elt Ideal) ((c : Thread nD τ).loc b)) (cd : Dev nD)

/-- Row r of the query tile at point t is row (t / 16)·1024 + r of the array the first window stages. -/
theorem qread0 (t : Fin cfg0.N) (b : Fin 2) (r : Fin 1024) (d : Fin 3) (k : Fin 8192) (hk : k.val = t.val / 16 * 1024 + r.val) :
    qblk0 V cd t (ix3 b r d) = V cd (Pipeline.arrRef spec0 0) (ix3 b k d) := by
  obtain ⟨ea, eb, ec, -⟩ := idx_facts0 t
  unfold qblk0 iblk0
  rw [View.read_apply]
  show V cd (Pipeline.arrRef spec0 0) (((cfg0.win 0).blk t).view.emb (ix3 b r d)) = _
  refine congrArg (V cd (Pipeline.arrRef spec0 0)) ?_
  funext a; apply Fin.ext
  match a with
  | ⟨0, _⟩ => show (cfg0.win 0).index t (0 : Fin 3) * 2 + 1 * b.val = b.val; rw [ea]; omega
  | ⟨1, _⟩ => show (cfg0.win 0).index t (1 : Fin 3) * 1024 + 1 * r.val = k.val; rw [eb, hk]; omega
  | ⟨2, _⟩ => show (cfg0.win 0).index t (2 : Fin 3) * 3 + 1 * d.val = d.val; rw [ec]; omega

/-- Row jj of the key tile at point t is row (t % 16)·512 + jj of the array the second window stages. -/
theorem kread0 (t : Fin cfg0.N) (b : Fin 2) (jj : Fin 512) (d : Fin 3) (k : Fin 8192) (hk : k.val = t.val % 16 * 512 + jj.val) :
    kblk0 V cd t (ix3 b jj d) = V cd (Pipeline.arrRef spec0 1) (ix3 b k d) := by
  obtain ⟨-, -, -, ea, eb, ec, -⟩ := idx_facts0 t
  unfold kblk0 iblk0
  rw [View.read_apply]
  show V cd (Pipeline.arrRef spec0 1) (((cfg0.win 1).blk t).view.emb (ix3 b jj d)) = _
  refine congrArg (V cd (Pipeline.arrRef spec0 1)) ?_
  funext a; apply Fin.ext
  match a with
  | ⟨0, _⟩ => show (cfg0.win 1).index t (0 : Fin 3) * 2 + 1 * b.val = b.val; rw [ea]; omega
  | ⟨1, _⟩ => show (cfg0.win 1).index t (1 : Fin 3) * 512 + 1 * jj.val = k.val; rw [eb, hk]; omega
  | ⟨2, _⟩ => show (cfg0.win 1).index t (2 : Fin 3) * 3 + 1 * d.val = d.val; rw [ec]; omega

/-- So the tile distance at point t is the distance between those rows of the two staged arrays. -/
theorem tiledist0 (t : Fin cfg0.N) (b : Fin 2) (r : Fin 1024) (jj : Fin 512) (i j : Fin 8192)
    (hi : i.val = t.val / 16 * 1024 + r.val) (hj : j.val = t.val % 16 * 512 + jj.val) :
    dist (n := 1024) (m := 512) (qblk0 V cd t) (kblk0 V cd t) b r jj
      = dist (n := 8192) (m := 8192) (V cd (Pipeline.arrRef spec0 0)) (V cd (Pipeline.arrRef spec0 1)) b i j :=
  dist_congr _ _ _ _ b r jj i j (fun d => qread0 V cd t b r d i hi) (fun d => kread0 V cd t b jj d j hj)

/-- The lower bounds of all the tile's distances at point t, as distances between rows of the staged arrays. -/
theorem tile_iff0 (t : Fin cfg0.N) (b : Fin 2) (r : Fin 1024) (i : Fin 8192) (hi : i.val = t.val / 16 * 1024 + r.val)
    (J : Fin 16) (hJ : J.val = t.val % 16) (c : EReal) :
    (∀ jj : Fin 512, c ≤ dist (n := 1024) (m := 512) (qblk0 V cd t) (kblk0 V cd t) b r jj)
      ↔ ∀ jj : Fin 512, c ≤ dist (n := 8192) (m := 8192) (V cd (Pipeline.arrRef spec0 0)) (V cd (Pipeline.arrRef spec0 1)) b i (key0 J jj) :=
  forall_congr' fun jj => by
    rw [tiledist0 V cd t b r jj i (key0 J jj) hi (by show J.val * 512 + jj.val = _; rw [hJ])]

/-- ALONG ONE RUN: after point n, a lower bound of the running minimum at (b, r) is one of every distance from query row
    (n / 16)·1024 + r to a key of the key tiles 0 … n % 16. -/
theorem runmin0 (b : Fin 2) (r : Fin 1024) (c : EReal) :
    ∀ (n : ℕ) (h : n < cfg0.N) (i : Fin 8192), i.val = n / 16 * 1024 + r.val →
      (c ≤ acc0 V cd n h (ix2 b r)
        ↔ ∀ J : Fin 16, J.val ≤ n % 16 → ∀ jj : Fin 512,
            c ≤ dist (n := 8192) (m := 8192) (V cd (Pipeline.arrRef spec0 0)) (V cd (Pipeline.arrRef spec0 1)) b i (key0 J jj)) := by
  intro n
  induction n with
  | zero =>
    intro h i hi
    have e := acc0_reset V cd ⟨0, h⟩ rfl
    rw [show acc0 V cd 0 h = _ from e, tile0_le_iff, reset0_apply,
      tile_iff0 V cd ⟨0, h⟩ b r i hi ⟨0, by norm_num⟩ rfl c]
    constructor
    · rintro ⟨-, H⟩ J hJ jj
      have : J = ⟨0, by norm_num⟩ := Fin.ext (by have : J.val ≤ 0 := hJ; show J.val = 0; omega)
      rw [this]; exact H jj
    · intro H; exact ⟨le_top, fun jj => H _ (Nat.zero_le _) jj⟩
  | succ n ih =>
    intro h i hi
    by_cases hz : (n + 1) % 16 = 0
    · -- the first key tile of a query tile: the running minimum starts from +∞
      have e := acc0_reset V cd ⟨n + 1, h⟩ hz
      rw [show acc0 V cd (n + 1) h = _ from e, tile0_le_iff, reset0_apply,
        tile_iff0 V cd ⟨n + 1, h⟩ b r i hi ⟨0, by norm_num⟩ hz.symm c]
      constructor
      · rintro ⟨-, H⟩ J hJ jj
        have : J = ⟨0, by norm_num⟩ := Fin.ext (by have : J.val ≤ (n + 1) % 16 := hJ; show J.val = 0; omega)
        rw [this]; exact H jj
      · intro H; exact ⟨le_top, fun jj => H _ (Nat.zero_le _) jj⟩
    · -- a later key tile: the minimum of what the point before left and this tile's
      have e := acc0_step V cd ⟨n + 1, h⟩ hz
      have hlt : (n + 1) % 16 < 16 := Nat.mod_lt _ (by norm_num)
      rw [show acc0 V cd (n + 1) h = _ from e, tile0_le_iff,
        tile_iff0 V cd ⟨n + 1, h⟩ b r i hi ⟨(n + 1) % 16, hlt⟩ rfl c]
      have ih' := ih (Nat.lt_of_succ_lt h) i (by rw [hi]; omega)
      rw [show acc0 V cd ((⟨n + 1, h⟩ : Fin cfg0.N).val - 1) _ = acc0 V cd n (Nat.lt_of_succ_lt h) from rfl, ih']
      constructor
      · rintro ⟨Ha, Hb⟩ J hJ jj
        by_cases hJn : J.val ≤ n % 16
        · exact Ha J hJn jj
        · have : J = ⟨(n + 1) % 16, hlt⟩ := Fin.ext (by show J.val = (n + 1) % 16; omega)
          rw [this]; exact Hb jj
      · intro H
        exact ⟨fun J hJ jj => H J (by omega) jj, fun jj => H _ (Nat.le_refl _) jj⟩

/-- What the output array's entry k is claimed to hold: the value whose lower bounds are those of every distance from query
    row k 1 of batch k 0 to a key. -/
def rowmin0 : S2x8192.Idx → EReal → Prop := fun k v =>
  ∀ c : EReal, c ≤ v ↔ ∀ j : Fin 8192,
    c ≤ dist (n := 8192) (m := 8192) (V cd (Pipeline.arrRef spec0 0)) (V cd (Pipeline.arrRef spec0 1)) ⟨(k 0).val, (k 0).isLt⟩ ⟨(k 1).val, (k 1).isLt⟩ j

/-- AT A RUN'S LAST POINT the running minimum has met all sixteen key tiles: at (ya, yb) it is the minimum over all 8192
    keys, for the array index k under (ya, yb) in the point's output block. -/
theorem lastpoint0 (t : Fin cfg0.N) (hl : t.val % 16 = 15) (ya : Fin 2) (yb : Fin 1024) (k : S2x8192.Idx)
    (hka : (k 0).val = ya.val) (hkb : (k 1).val = t.val / 16 * 1024 + yb.val) :
    rowmin0 V cd k (acc0 V cd t.val t.isLt (ix2 ya yb)) := by
  intro c
  rw [runmin0 V cd ya yb c t.val t.isLt ⟨(k 1).val, (k 1).isLt⟩ hkb, forall_key_iff]
  have : (⟨(k 0).val, (k 0).isLt⟩ : Fin 2) = ya := Fin.ext hka
  rw [this]
  exact ⟨fun H J jj => H J (by have := J.isLt; omega) jj, fun H J _ jj => H J jj⟩
end

section
variable (V : (c : Dev nD) → (b : Ref sig .tc) → Buf (Elt Ideal) ((c : Thread nD τ).loc b)) (cd : Dev nD)

/-- WHAT A WRITE-BACK WRITES: every element a flushing point writes back has the claimed property at the array index it is
    written to (the block's coordinate is the block index times the block's size plus the coordinate inside the block). -/
theorem post0 (t : Fin cfg0.N) (hf : (cfg0.win 2).flush t = true) (y : ((cfg0.win 2).xblock (cfg0.grid.coords t)).Idx) :
    rowmin0 V cd (((cfg0.win 2).blk t).view.emb y)
      (_root_.cast (congrArg (Elt Ideal) ((cfg0.win 2).blk t).view.elt_eq.symm) ((dat0 (F := Ideal) V cd).flushed 2 t y)) := by
  obtain ⟨-, -, -, -, -, -, ea, eb⟩ := idx_facts0 t
  have hy : (cfg0.win 2).xinj (cfg0.grid.coords t) y = ix2 (⟨(y 0).val, (y 0).isLt⟩ : Fin 2) (⟨(y 1).val, (y 1).isLt⟩ : Fin 1024) :=
    funext fun a => match a with | ⟨0, _⟩ => rfl | ⟨1, _⟩ => rfl
  show rowmin0 V cd (((cfg0.win 2).blk t).view.emb y) ((dat0 (F := Ideal) V cd).after 2 t ((cfg0.win 2).xinj (cfg0.grid.coords t) y))
  rw [after0_2, hy]
  refine lastpoint0 V cd t ((flush0_2 t).mp hf) _ _ _ ?_ ?_
  · show (cfg0.win 2).index t (0 : Fin 2) * 2 + 1 * (y 0).val = (y 0).val; rw [ea]; omega
  · show (cfg0.win 2).index t (1 : Fin 2) * 1024 + 1 * (y 1).val = t.val / 16 * 1024 + (y 1).val; rw [eb]; omega
end

/-- A lower bound of the output array's entry (b, i) after the call is one of every distance from query `i` (a row of
    the array the first window stages) to a key (a row of the array the second window stages). -/
theorem out0_le_iff (V : (c : Dev nD) → (b : Ref sig .tc) → Buf (Elt Ideal) ((c : Thread nD τ).loc b)) (cd : Dev nD)
    (b : Fin 2) (i : Fin 8192) (c : EReal) :
    c ≤ (dat0 (F := Ideal) V cd).arrAt 2 cfg0.N (ix2 b i)
      ↔ ∀ j : Fin 8192, c ≤ dist (n := 8192) (m := 8192) (V cd (Pipeline.arrRef spec0 0)) (V cd (Pipeline.arrRef spec0 1)) b i j := by
  have hN : cfg0.N = 128 := N_0
  have hi := i.isLt
  -- the point whose write-back covers row i: the last of query tile i / 1024's run
  obtain ⟨t, ht⟩ : ∃ t : Fin cfg0.N, t.val = 16 * (i.val / 1024) + 15 := ⟨⟨16 * (i.val / 1024) + 15, by rw [hN]; omega⟩, rfl⟩
  obtain ⟨-, -, -, -, -, -, ea, eb⟩ := idx_facts0 t
  have hf : (cfg0.win 2).flush t = true := (flush0_2 t).mpr (by rw [ht]; omega)
  -- row i is row i % 1024 of that point's output block
  have hmem : ((cfg0.win 2).blk t).view.emb (ix2 b (⟨i.val % 1024, Nat.mod_lt _ (by norm_num)⟩ : Fin 1024)) = ix2 b i := by
    funext a; apply Fin.ext
    match a with
    | ⟨0, _⟩ => show (cfg0.win 2).index t (0 : Fin 2) * 2 + 1 * b.val = b.val; rw [ea]; omega
    | ⟨1, _⟩ => show (cfg0.win 2).index t (1 : Fin 2) * 1024 + 1 * (i.val % 1024) = i.val; rw [eb, ht]; omega
  have hin : ix2 b i ∈ ((cfg0.win 2).blk t).view.set := hmem ▸ ((cfg0.win 2).blk t).view.emb_mem_set _
  exact (dat0 (F := Ideal) V cd).arrAt_forall_of_flushed 2 (rowmin0 V cd) (fun t hf y => post0 V cd t hf y) cfg0.N t (ix2 b i) t.isLt hf hin c

end Cert.KernelIdeal.RowMin

end
-- ==== Proof.KernelIdeal.Tile1.lean ====
import proofs.«128316_j11218454577160_1_alg».proof.Proof.Gen.KernelIdeal.Skeleton
import proofs.«128316_j11218454577160_1_alg».proof.Proof.KernelIdeal.TileOps
import proofs.«128316_j11218454577160_1_alg».proof.Proof.PairDist
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Cert.PairDist
/-! # What one grid point of the second call computes, over the extended reals

For a query tile `q` : [2, 1024, 3], a key tile `k` : [2, 512, 3] and the scratch `s` : [2, 1024] as the point
finds it, the point leaves in the scratch, at batch `b` and row `r`, the minimum of `s b r` and of the distances
from query row `r` to the tile's 512 keys; known by its lower bounds. -/
/-! ## The two stored values -/

/-- The reset value is +∞ everywhere. -/
theorem reset1_apply (j : S2x1024.Idx) : k1_pay1 (F := Ideal) j = ⊤ := by
  unfold k1_pay1
  rw [shapeCast_self]
  exact ofBits_pinf_f32

/-- A lower bound of what the point leaves at (b, r) is one of the scratch's entry there and of every distance from
    query row r to a key of the tile. -/
theorem tile1_le_iff (q : Vec Ideal S2x1024x3 .f32) (k : Vec Ideal S2x512x3 .f32) (s : Vec Ideal S2x1024 .f32)
    (b : Fin 2) (r : Fin 1024) (c : EReal) :
    c ≤ k1_pay2 (F := Ideal) q k s (ix2 b r) ↔ c ≤ s (ix2 b r) ∧ ∀ jj : Fin 512, c ≤ dist (n := 1024) (m := 512) q k b r jj := by
  refine (minStep_le_iff _ s _ _ _ _ b r c).trans ?_
  refine and_congr_right' (forall_congr' fun jj => ?_)
  refine Eq.to_iff (congrArg (c ≤ ·) ?_)
  refine (elem_apply _ _ _ (ix3 b r jj)).trans ?_
  unfold Cert.PairDist.dist
  refine congrArg Ideal.sqrt (congrArg (max · zero) ?_)
  refine congr (congrArg HSub.hSub (congr (congrArg HAdd.hAdd ?_) ?_)) (congrArg (two * ·) ?_)
  · exact sqRow_apply (n := 1024) (m := 512) q _ _ _ _ _ _ b r jj
  · exact sqCol_apply (n := 1024) (m := 512) k _ _ _ _ _ _ b r jj
  · exact tileDot_apply _ _ b r jj

end Cert.KernelIdeal.RowMin

end
-- ==== Proof.KernelIdeal.Out1.lean ====
import proofs.«128316_j11218454577160_1_alg».proof.Proof.KernelIdeal.Data1
import proofs.«128316_j11218454577160_1_alg».proof.Proof.KernelIdeal.Tile1
import proofs.«128316_j11218454577160_1_alg».proof.Proof.PairDist
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Cert.PairDist
open Idealize.ShloMosaic.Pipeline (Dat)

/-! # What the second call leaves in its output array, over the extended reals

Output row i of batch b lies in query tile i / 1024, whose run of sixteen points ends at point 16·(i / 1024) + 15;
there the running minimum has met all sixteen key tiles, and the block written back holds, at row i % 1024, the
minimum over all 8192 keys of the distance from query i: known by its lower bounds. -/

/-- The index maps, decided once over the grid: point t is query tile t / 16 against key tile t % 16, and the
    output block is the query tile's. -/
theorem idx_facts1 : ∀ t : Fin cfg1.N,
    (cfg1.win 0).index t (0 : Fin 3) = 0 ∧ (cfg1.win 0).index t (1 : Fin 3) = t.val / 16 ∧ (cfg1.win 0).index t (2 : Fin 3) = 0
    ∧ (cfg1.win 1).index t (0 : Fin 3) = 0 ∧ (cfg1.win 1).index t (1 : Fin 3) = t.val % 16 ∧ (cfg1.win 1).index t (2 : Fin 3) = 0
    ∧ (cfg1.win 2).index t (0 : Fin 2) = 0 ∧ (cfg1.win 2).index t (1 : Fin 2) = t.val / 16 :=
  (by decide +kernel : ∀ t : Fin grid1.N, _)

/-- Key jj of key tile J, as a key of all 8192. -/
abbrev key1 (J : Fin 16) (jj : Fin 512) : Fin 8192 := ⟨J.val * 512 + jj.val, by have := J.isLt; have := jj.isLt; omega⟩

section
variable (V : (c : Dev nD) → (b : Ref sig .tc) → Buf (Elt Ideal) ((c : Thread nD τ).loc b)) (cd : Dev nD)

/-- Row r of the query tile at point t is row (t / 16)·1024 + r of the array the first window stages. -/
theorem qread1 (t : Fin cfg1.N) (b : Fin 2) (r : Fin 1024) (d : Fin 3) (k : Fin 8192) (hk : k.val = t.val / 16 * 1024 + r.val) :
    qblk1 V cd t (ix3 b r d) = V cd (Pipeline.arrRef spec1 0) (ix3 b k d) := by
  obtain ⟨ea, eb, ec, -⟩ := idx_facts1 t
  unfold qblk1 iblk1
  rw [View.read_apply]
  show V cd (Pipeline.arrRef spec1 0) (((cfg1.win 0).blk t).view.emb (ix3 b r d)) = _
  refine congrArg (V cd (Pipeline.arrRef spec1 0)) ?_
  funext a; apply Fin.ext
  match a with
  | ⟨0, _⟩ => show (cfg1.win 0).index t (0 : Fin 3) * 2 + 1 * b.val = b.val; rw [ea]; omega
  | ⟨1, _⟩ => show (cfg1.win 0).index t (1 : Fin 3) * 1024 + 1 * r.val = k.val; rw [eb, hk]; omega
  | ⟨2, _⟩ => show (cfg1.win 0).index t (2 : Fin 3) * 3 + 1 * d.val = d.val; rw [ec]; omega

/-- Row jj of the key tile at point t is row (t % 16)·512 + jj of the array the second window stages. -/
theorem kread1 (t : Fin cfg1.N) (b : Fin 2) (jj : Fin 512) (d : Fin 3) (k : Fin 8192) (hk : k.val = t.val % 16 * 512 + jj.val) :
    kblk1 V cd t (ix3 b jj d) = V cd (Pipeline.arrRef spec1 1) (ix3 b k d) := by
  obtain ⟨-, -, -, ea, eb, ec, -⟩ := idx_facts1 t
  unfold kblk1 iblk1
  rw [View.read_apply]
  show V cd (Pipeline.arrRef spec1 1) (((cfg1.win 1).blk t).view.emb (ix3 b jj d)) = _
  refine congrArg (V cd (Pipeline.arrRef spec1 1)) ?_
  funext a; apply Fin.ext
  match a with
  | ⟨0, _⟩ => show (cfg1.win 1).index t (0 : Fin 3) * 2 + 1 * b.val = b.val; rw [ea]; omega
  | ⟨1, _⟩ => show (cfg1.win 1).index t (1 : Fin 3) * 512 + 1 * jj.val = k.val; rw [eb, hk]; omega
  | ⟨2, _⟩ => show (cfg1.win 1).index t (2 : Fin 3) * 3 + 1 * d.val = d.val; rw [ec]; omega

/-- So the tile distance at point t is the distance between those rows of the two staged arrays. -/
theorem tiledist1 (t : Fin cfg1.N) (b : Fin 2) (r : Fin 1024) (jj : Fin 512) (i j : Fin 8192)
    (hi : i.val = t.val / 16 * 1024 + r.val) (hj : j.val = t.val % 16 * 512 + jj.val) :
    dist (n := 1024) (m := 512) (qblk1 V cd t) (kblk1 V cd t) b r jj
      = dist (n := 8192) (m := 8192) (V cd (Pipeline.arrRef spec1 0)) (V cd (Pipeline.arrRef spec1 1)) b i j :=
  dist_congr _ _ _ _ b r jj i j (fun d => qread1 V cd t b r d i hi) (fun d => kread1 V cd t b jj d j hj)

/-- The lower bounds of all the tile's distances at point t, as distances between rows of the staged arrays. -/
theorem tile_iff1 (t : Fin cfg1.N) (b : Fin 2) (r : Fin 1024) (i : Fin 8192) (hi : i.val = t.val / 16 * 1024 + r.val)
    (J : Fin 16) (hJ : J.val = t.val % 16) (c : EReal) :
    (∀ jj : Fin 512, c ≤ dist (n := 1024) (m := 512) (qblk1 V cd t) (kblk1 V cd t) b r jj)
      ↔ ∀ jj : Fin 512, c ≤ dist (n := 8192) (m := 8192) (V cd (Pipeline.arrRef spec1 0)) (V cd (Pipeline.arrRef spec1 1)) b i (key1 J jj) :=
  forall_congr' fun jj => by
    rw [tiledist1 V cd t b r jj i (key1 J jj) hi (by show J.val * 512 + jj.val = _; rw [hJ])]

/-- ALONG ONE RUN: after point n, a lower bound of the running minimum at (b, r) is one of every distance from query row
    (n / 16)·1024 + r to a key of the key tiles 0 … n % 16. -/
theorem runmin1 (b : Fin 2) (r : Fin 1024) (c : EReal) :
    ∀ (n : ℕ) (h : n < cfg1.N) (i : Fin 8192), i.val = n / 16 * 1024 + r.val →
      (c ≤ acc1 V cd n h (ix2 b r)
        ↔ ∀ J : Fin 16, J.val ≤ n % 16 → ∀ jj : Fin 512,
            c ≤ dist (n := 8192) (m := 8192) (V cd (Pipeline.arrRef spec1 0)) (V cd (Pipeline.arrRef spec1 1)) b i (key1 J jj)) := by
  intro n
  induction n with
  | zero =>
    intro h i hi
    have e := acc1_reset V cd ⟨0, h⟩ rfl
    rw [show acc1 V cd 0 h = _ from e, tile1_le_iff, reset1_apply,
      tile_iff1 V cd ⟨0, h⟩ b r i hi ⟨0, by norm_num⟩ rfl c]
    constructor
    · rintro ⟨-, H⟩ J hJ jj
      have : J = ⟨0, by norm_num⟩ := Fin.ext (by have : J.val ≤ 0 := hJ; show J.val = 0; omega)
      rw [this]; exact H jj
    · intro H; exact ⟨le_top, fun jj => H _ (Nat.zero_le _) jj⟩
  | succ n ih =>
    intro h i hi
    by_cases hz : (n + 1) % 16 = 0
    · -- the first key tile of a query tile: the running minimum starts from +∞
      have e := acc1_reset V cd ⟨n + 1, h⟩ hz
      rw [show acc1 V cd (n + 1) h = _ from e, tile1_le_iff, reset1_apply,
        tile_iff1 V cd ⟨n + 1, h⟩ b r i hi ⟨0, by norm_num⟩ hz.symm c]
      constructor
      · rintro ⟨-, H⟩ J hJ jj
        have : J = ⟨0, by norm_num⟩ := Fin.ext (by have : J.val ≤ (n + 1) % 16 := hJ; show J.val = 0; omega)
        rw [this]; exact H jj
      · intro H; exact ⟨le_top, fun jj => H _ (Nat.zero_le _) jj⟩
    · -- a later key tile: the minimum of what the point before left and this tile's
      have e := acc1_step V cd ⟨n + 1, h⟩ hz
      have hlt : (n + 1) % 16 < 16 := Nat.mod_lt _ (by norm_num)
      rw [show acc1 V cd (n + 1) h = _ from e, tile1_le_iff,
        tile_iff1 V cd ⟨n + 1, h⟩ b r i hi ⟨(n + 1) % 16, hlt⟩ rfl c]
      have ih' := ih (Nat.lt_of_succ_lt h) i (by rw [hi]; omega)
      rw [show acc1 V cd ((⟨n + 1, h⟩ : Fin cfg1.N).val - 1) _ = acc1 V cd n (Nat.lt_of_succ_lt h) from rfl, ih']
      constructor
      · rintro ⟨Ha, Hb⟩ J hJ jj
        by_cases hJn : J.val ≤ n % 16
        · exact Ha J hJn jj
        · have : J = ⟨(n + 1) % 16, hlt⟩ := Fin.ext (by show J.val = (n + 1) % 16; omega)
          rw [this]; exact Hb jj
      · intro H
        exact ⟨fun J hJ jj => H J (by omega) jj, fun jj => H _ (Nat.le_refl _) jj⟩

/-- What the output array's entry k is claimed to hold: the value whose lower bounds are those of every distance from query
    row k 1 of batch k 0 to a key. -/
def rowmin1 : S2x8192.Idx → EReal → Prop := fun k v =>
  ∀ c : EReal, c ≤ v ↔ ∀ j : Fin 8192,
    c ≤ dist (n := 8192) (m := 8192) (V cd (Pipeline.arrRef spec1 0)) (V cd (Pipeline.arrRef spec1 1)) ⟨(k 0).val, (k 0).isLt⟩ ⟨(k 1).val, (k 1).isLt⟩ j

/-- AT A RUN'S LAST POINT the running minimum has met all sixteen key tiles: at (ya, yb) it is the minimum over all 8192
    keys, for the array index k under (ya, yb) in the point's output block. -/
theorem lastpoint1 (t : Fin cfg1.N) (hl : t.val % 16 = 15) (ya : Fin 2) (yb : Fin 1024) (k : S2x8192.Idx)
    (hka : (k 0).val = ya.val) (hkb : (k 1).val = t.val / 16 * 1024 + yb.val) :
    rowmin1 V cd k (acc1 V cd t.val t.isLt (ix2 ya yb)) := by
  intro c
  rw [runmin1 V cd ya yb c t.val t.isLt ⟨(k 1).val, (k 1).isLt⟩ hkb, forall_key_iff]
  have : (⟨(k 0).val, (k 0).isLt⟩ : Fin 2) = ya := Fin.ext hka
  rw [this]
  exact ⟨fun H J jj => H J (by have := J.isLt; omega) jj, fun H J _ jj => H J jj⟩
end

section
variable (V : (c : Dev nD) → (b : Ref sig .tc) → Buf (Elt Ideal) ((c : Thread nD τ).loc b)) (cd : Dev nD)

/-- WHAT A WRITE-BACK WRITES: every element a flushing point writes back has the claimed property at the array index it is
    written to (the block's coordinate is the block index times the block's size plus the coordinate inside the block). -/
theorem post1 (t : Fin cfg1.N) (hf : (cfg1.win 2).flush t = true) (y : ((cfg1.win 2).xblock (cfg1.grid.coords t)).Idx) :
    rowmin1 V cd (((cfg1.win 2).blk t).view.emb y)
      (_root_.cast (congrArg (Elt Ideal) ((cfg1.win 2).blk t).view.elt_eq.symm) ((dat1 (F := Ideal) V cd).flushed 2 t y)) := by
  obtain ⟨-, -, -, -, -, -, ea, eb⟩ := idx_facts1 t
  have hy : (cfg1.win 2).xinj (cfg1.grid.coords t) y = ix2 (⟨(y 0).val, (y 0).isLt⟩ : Fin 2) (⟨(y 1).val, (y 1).isLt⟩ : Fin 1024) :=
    funext fun a => match a with | ⟨0, _⟩ => rfl | ⟨1, _⟩ => rfl
  show rowmin1 V cd (((cfg1.win 2).blk t).view.emb y) ((dat1 (F := Ideal) V cd).after 2 t ((cfg1.win 2).xinj (cfg1.grid.coords t) y))
  rw [after1_2, hy]
  refine lastpoint1 V cd t ((flush1_2 t).mp hf) _ _ _ ?_ ?_
  · show (cfg1.win 2).index t (0 : Fin 2) * 2 + 1 * (y 0).val = (y 0).val; rw [ea]; omega
  · show (cfg1.win 2).index t (1 : Fin 2) * 1024 + 1 * (y 1).val = t.val / 16 * 1024 + (y 1).val; rw [eb]; omega
end

/-- A lower bound of the output array's entry (b, i) after the call is one of every distance from query `i` (a row of
    the array the first window stages) to a key (a row of the array the second window stages). -/
theorem out1_le_iff (V : (c : Dev nD) → (b : Ref sig .tc) → Buf (Elt Ideal) ((c : Thread nD τ).loc b)) (cd : Dev nD)
    (b : Fin 2) (i : Fin 8192) (c : EReal) :
    c ≤ (dat1 (F := Ideal) V cd).arrAt 2 cfg1.N (ix2 b i)
      ↔ ∀ j : Fin 8192, c ≤ dist (n := 8192) (m := 8192) (V cd (Pipeline.arrRef spec1 0)) (V cd (Pipeline.arrRef spec1 1)) b i j := by
  have hN : cfg1.N = 128 := N_1
  have hi := i.isLt
  -- the point whose write-back covers row i: the last of query tile i / 1024's run
  obtain ⟨t, ht⟩ : ∃ t : Fin cfg1.N, t.val = 16 * (i.val / 1024) + 15 := ⟨⟨16 * (i.val / 1024) + 15, by rw [hN]; omega⟩, rfl⟩
  obtain ⟨-, -, -, -, -, -, ea, eb⟩ := idx_facts1 t
  have hf : (cfg1.win 2).flush t = true := (flush1_2 t).mpr (by rw [ht]; omega)
  -- row i is row i % 1024 of that point's output block
  have hmem : ((cfg1.win 2).blk t).view.emb (ix2 b (⟨i.val % 1024, Nat.mod_lt _ (by norm_num)⟩ : Fin 1024)) = ix2 b i := by
    funext a; apply Fin.ext
    match a with
    | ⟨0, _⟩ => show (cfg1.win 2).index t (0 : Fin 2) * 2 + 1 * b.val = b.val; rw [ea]; omega
    | ⟨1, _⟩ => show (cfg1.win 2).index t (1 : Fin 2) * 1024 + 1 * (i.val % 1024) = i.val; rw [eb, ht]; omega
  have hin : ix2 b i ∈ ((cfg1.win 2).blk t).view.set := hmem ▸ ((cfg1.win 2).blk t).view.emb_mem_set _
  exact (dat1 (F := Ideal) V cd).arrAt_forall_of_flushed 2 (rowmin1 V cd) (fun t hf y => post1 V cd t hf y) cfg1.N t (ix2 b i) t.isLt hf hin c

end Cert.KernelIdeal.RowMin

end
-- ==== Proof.RefRead.lean ====
/-
  The reference's run and its stages read at an index: this module only brings the two
  reference-side modules into the build, so that the modules that state what the reference
  computes can import them from one place.
-/
import proofs.«128316_j11218454577160_1_alg».proof.Proof.Gen.ReferenceIdeal.Read
-- ==== Proof.RefDist.lean ====
import proofs.«128316_j11218454577160_1_alg».proof.Proof.RefRead
import proofs.«128316_j11218454577160_1_alg».proof.Proof.PairDist
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RowMin

open Cert.ReferenceIdeal Cert.ReferenceIdeal.Gen
open Idealize.ShloMosaic Idealize.ShloMosaic.TcCoe Idealize.ShloMosaic.ValueIdx Idealize.SL.Sem
open Cert.PairDist
open Cert.ReferenceIdeal.Read

/-! # The reference's two minima, over the extended reals

With x1 the queries of the first direction (gt) and x0 the keys (pred), the reference forms the whole
[2, 8192, 8192] matrix of distances dist x1 x0 b i j and takes its minimum along j (for each i) and along i (for each
j), each a fold of min from +∞: known by their lower bounds. -/

/-! ## The matrix entry

At (b, i, j) the matrix reads x1 at (b, i, ·) and x0 at (b, j, ·): the index maps of the dot product, of the two
squared-norm sums and of their broadcasts, composed, are these coordinates. -/

/-- The dot product's left operand at (b, i, j), term k, is x1 at (b, i, k). -/
theorem lidx6 (b : Fin 2) (i j : Fin 8192) (k : Fin 3) : lidx_main_v6 (ix3 b i j) k = ix3 b i k :=
  funext fun a => by match a with | ⟨0, _⟩ => rfl | ⟨1, _⟩ => rfl | ⟨2, _⟩ => rfl

/-- The dot product's right operand at (b, i, j), term k, is x0 at (b, j, k). -/
theorem ridx6 (b : Fin 2) (i j : Fin 8192) (k : Fin 3) : ridx_main_v6 (ix3 b i j) k = ix3 b j k :=
  funext fun a => by match a with | ⟨0, _⟩ => rfl | ⟨1, _⟩ => rfl | ⟨2, _⟩ => rfl

/-- The squared norm of x1 broadcast along j: at (b, i, j), term k of its sum is at (b, i, k). -/
theorem idx1 (b : Fin 2) (i j : Fin 8192) (k : Fin 3) :
    idx_main_v1 (idx_main_v2 (idx_main_v7 (ix3 b i j))) k = ix3 b i k :=
  funext fun a => by match a with | ⟨0, _⟩ => rfl | ⟨1, _⟩ => rfl | ⟨2, _⟩ => rfl

/-- The squared norm of x0 broadcast along i: at (b, i, j), term k of its sum is at (b, j, k). -/
theorem idx4 (b : Fin 2) (i j : Fin 8192) (k : Fin 3) :
    idx_main_v4 (idx_main_v5 (idx_main_v8 (ix3 b i j))) k = ix3 b j k :=
  funext fun a => by match a with | ⟨0, _⟩ => rfl | ⟨1, _⟩ => rfl | ⟨2, _⟩ => rfl

/-- The matrix at (b, i, j) is the distance from point i of x1 to point j of x0: √ max (‖x1 b i‖² + ‖x0 b j‖² − 2·⟨x1 b i, x0 b j⟩, 0),
    each float sum starting from the word 0, which is the extended real 0. -/
theorem v15_apply (x0 x1 : (⟨S2x8192x3, .f32⟩ : BufTy).Contents (Elt Ideal)) (b : Fin 2) (i j : Fin 8192) :
    val_main_v15 (F := Ideal) x0 x1 (ix3 b i j) = dist (n := 8192) (m := 8192) x1 x0 b i j := by
  rw [val_main_v15_apply, val_main_v14_apply, val_main_v12_apply, val_main_v9_apply, val_main_v11_apply,
    val_main_v13_apply, val_main_cst_2_apply, val_main_v10_apply, val_main_cst_1_apply, val_main_v6_apply,
    val_main_v7_apply, val_main_v2_apply, val_main_v1_apply, val_main_cst_apply,
    val_main_v8_apply, val_main_v5_apply, val_main_v4_apply, val_main_cst_0_apply]
  simp only [val_main_v0_apply, val_main_v3_apply, lidx6, ridx6, idx1, idx4]
  simp only [Ideal.hostUnary_sqrt_def, Ideal.maximumf_def, Ideal.subf_def, Ideal.addf_def, Ideal.mulf_def,
    Ideal.ofBits_def, Ideal.ofBits_zero_f32, zero_add]
  unfold PairDist.dist PairDist.sq PairDist.dot PairDist.two PairDist.zero
  simp only [Ideal.ofBits_zero_f32]

/-! ## The two folds

A minimum along one axis folds min, from the word of +∞, over that axis's coordinates: the index over (b, i) with the
coordinate inserted. -/

/-- The index over (b, i) with coordinate k inserted on the last axis is (b, i, k). -/
theorem lift_d2 (h : S2x8192x8192.Reduces [2] S2x8192) (b : Fin 2) (i k : Fin 8192) :
    h.lift (ix2 b i) k = ix3 b i k :=
  funext fun a => Fin.ext (by match a with | ⟨0, _⟩ => rfl | ⟨1, _⟩ => rfl | ⟨2, _⟩ => rfl)

/-- The index over (b, j) with coordinate k inserted on the middle axis is (b, k, j). -/
theorem lift_d1 (h : S2x8192x8192.Reduces [1] S2x8192) (b : Fin 2) (j k : Fin 8192) :
    h.lift (ix2 b j) k = ix3 b k j :=
  funext fun a => Fin.ext (by match a with | ⟨0, _⟩ => rfl | ⟨1, _⟩ => rfl | ⟨2, _⟩ => rfl)

/-- The f32 word of +∞ is the extended reals' ⊤. -/
theorem top_word : Ideal.ofBits .f32 0x7F800000#32 = ⊤ := by simp [Ideal.ofBits, Ideal.ieee]

/-- The minimum along the keys, at (b, i). -/
theorem ref16_le_iff (x0 x1 : (⟨S2x8192x3, .f32⟩ : BufTy).Contents (Elt Ideal)) (b : Fin 2) (i : Fin 8192) (c : EReal) :
    c ≤ val_main_v16 (F := Ideal) x0 x1 (ix2 b i) ↔ ∀ j : Fin 8192, c ≤ dist (n := 8192) (m := 8192) x1 x0 b i j := by
  have h : S2x8192x8192.Reduces [2] S2x8192 := by decide
  have e := Host.reduce_eq_fold_single (FloatOps.minimumf (F := Ideal) (φ := .f32)) (val_main_v15 (F := Ideal) x0 x1)
    (val_main_cst_3 (F := Ideal)) reducesTo_S2x8192x8192_S2x8192_d2 h h_S_ (ix2 b i)
  have htop : val_main_cst_3 (F := Ideal) (Shape.Idx.first h_S_) = ⊤ := top_word
  rw [htop] at e
  have e16 : val_main_v16 (F := Ideal) x0 x1 (ix2 b i)
      = Finset.fold min ⊤ (val_main_v15 (F := Ideal) x0 x1 ∘ h.lift (ix2 b i)) Finset.univ := e
  have hk : ∀ k : Fin 8192, (val_main_v15 (F := Ideal) x0 x1 ∘ h.lift (ix2 b i)) k = dist (n := 8192) (m := 8192) x1 x0 b i k :=
    fun k => (congrArg (val_main_v15 (F := Ideal) x0 x1) (lift_d2 h b i k)).trans (v15_apply x0 x1 b i k)
  rw [e16, le_fold_min_top]
  exact ⟨fun H k => le_of_le_of_eq (H k) (hk k), fun H k => le_of_le_of_eq (H k) (hk k).symm⟩

/-- The minimum along the queries, at (b, j). -/
theorem ref17_le_iff (x0 x1 : (⟨S2x8192x3, .f32⟩ : BufTy).Contents (Elt Ideal)) (b : Fin 2) (j : Fin 8192) (c : EReal) :
    c ≤ val_main_v17 (F := Ideal) x0 x1 (ix2 b j) ↔ ∀ i : Fin 8192, c ≤ dist (n := 8192) (m := 8192) x1 x0 b i j := by
  have h : S2x8192x8192.Reduces [1] S2x8192 := by decide
  have e := Host.reduce_eq_fold_single (FloatOps.minimumf (F := Ideal) (φ := .f32)) (val_main_v15 (F := Ideal) x0 x1)
    (val_main_cst_4 (F := Ideal)) reducesTo_S2x8192x8192_S2x8192_d1 h h_S_ (ix2 b j)
  have htop : val_main_cst_4 (F := Ideal) (Shape.Idx.first h_S_) = ⊤ := top_word
  rw [htop] at e
  have e17 : val_main_v17 (F := Ideal) x0 x1 (ix2 b j)
      = Finset.fold min ⊤ (val_main_v15 (F := Ideal) x0 x1 ∘ h.lift (ix2 b j)) Finset.univ := e
  have hk : ∀ k : Fin 8192, (val_main_v15 (F := Ideal) x0 x1 ∘ h.lift (ix2 b j)) k = dist (n := 8192) (m := 8192) x1 x0 b k j :=
    fun k => (congrArg (val_main_v15 (F := Ideal) x0 x1) (lift_d1 h b j k)).trans (v15_apply x0 x1 b k j)
  rw [e17, le_fold_min_top]
  exact ⟨fun H k => le_of_le_of_eq (H k) (hk k), fun H k => le_of_le_of_eq (H k) (hk k).symm⟩

end Cert.ReferenceIdeal.RowMin

end
-- ==== Proof.Bridge.lean ====
/-
  The two programs compute one number. Over the extended reals the kernel's first output is, entry by entry, the
  minimum over all keys of the pairwise distance from a point of the second argument to the points of the first,
  which is the reference's minimum along its last axis; its second output the same with the arguments' roles
  exchanged, which by the distance's symmetry is the reference's minimum along its middle axis. Both programs
  then take the same mean of row means of the two arrays.
-/
import proofs.«128316_j11218454577160_1_alg».proof.Proof.KernelIdeal.Result
import proofs.«128316_j11218454577160_1_alg».proof.Proof.KernelIdeal.Out0
import proofs.«128316_j11218454577160_1_alg».proof.Proof.KernelIdeal.Out1
import proofs.«128316_j11218454577160_1_alg».proof.Proof.RefDist

set_option maxRecDepth 16384

noncomputable section

namespace Cert.Proof.Bridge

open Idealize.ShloMosaic Idealize.ShloMosaic.TcCoe Idealize.ShloMosaic.ValueIdx Idealize.SL.Sem
open Cert.PairDist Cert.KernelIdeal Cert.KernelIdeal.Gen Cert.KernelIdeal.RowMin

variable (m : (ℓ : Loc nD τ sig) → Buf (Elt Ideal) ℓ)

/-- The two arguments as the reference names them. -/
abbrev pred (c : Dev nD) : (⟨Cert.ReferenceIdeal.S2x8192x3, .f32⟩ : BufTy).Contents (Elt Ideal) := m ((c.tc : Thread nD τ).loc main_arg0)
abbrev gt (c : Dev nD) : (⟨Cert.ReferenceIdeal.S2x8192x3, .f32⟩ : BufTy).Contents (Elt Ideal) := m ((c.tc : Thread nD τ).loc main_arg1)

/-- The first call's output is the reference's minimum along the keys. -/
theorem out0_eq (c : Dev nD) :
    (B2 m c main_v0 : (⟨Cert.ReferenceIdeal.S2x8192, .f32⟩ : BufTy).Contents (Elt Ideal))
      = Cert.ReferenceIdeal.Read.val_main_v16 (F := Ideal) (pred m c) (gt m c) := by
  rw [B2_out0]
  funext j
  obtain ⟨b, i, rfl⟩ : ∃ (b : Fin 2) (i : Fin 8192), j = ix2 b i := ⟨j 0, j 1, eq_ix2 j⟩
  exact eq_of_le_iff fun x => (out0_le_iff (R0 m) c b i x).trans (Cert.ReferenceIdeal.RowMin.ref16_le_iff (pred m c) (gt m c) b i x).symm

/-- The second call's output is the reference's minimum along the queries: the distance is symmetric. -/
theorem out1_eq (c : Dev nD) :
    (B2 m c main_v1 : (⟨Cert.ReferenceIdeal.S2x8192, .f32⟩ : BufTy).Contents (Elt Ideal))
      = Cert.ReferenceIdeal.Read.val_main_v17 (F := Ideal) (pred m c) (gt m c) := by
  rw [B2_out1]
  funext j
  obtain ⟨b, i, rfl⟩ : ∃ (b : Fin 2) (i : Fin 8192), j = ix2 b i := ⟨j 0, j 1, eq_ix2 j⟩
  refine eq_of_le_iff fun x => (out1_le_iff (R1 m) c b i x).trans ?_
  rw [Cert.ReferenceIdeal.RowMin.ref17_le_iff (pred m c) (gt m c) b i x]
  have h0 : R1 m c (Pipeline.arrRef spec1 0) = pred m c := R1_arg0 m c
  have h1 : R1 m c (Pipeline.arrRef spec1 1) = gt m c := R1_arg1 m c
  rw [h0, h1]
  exact forall_congr' fun k => by rw [dist_symm]

/-- The reference's result is the same mean of row means of its two minima. -/
theorem ref_result (x0 x1 : (⟨Cert.ReferenceIdeal.S2x8192x3, .f32⟩ : BufTy).Contents (Elt Ideal)) :
    Cert.ReferenceIdeal.Read.val_main_v26 (F := Ideal) x0 x1
      = meanOfMeans (F := Ideal) (Cert.ReferenceIdeal.Read.val_main_v16 (F := Ideal) x0 x1) (Cert.ReferenceIdeal.Read.val_main_v17 (F := Ideal) x0 x1) := rfl

/-- So the kernel's result buffer ends at the reference's result of the same arguments. -/
theorem result_eq (c : Dev nD) :
    (B3 m c main_v10 : (⟨Cert.ReferenceIdeal.S_, .f32⟩ : BufTy).Contents (Elt Ideal))
      = Cert.ReferenceIdeal.Read.val_main_v26 (F := Ideal) (pred m c) (gt m c) := by
  rw [ref_result, B3_result]
  exact congrArg₂ (meanOfMeans (F := Ideal)) (out0_eq m c) (out1_eq m c)

end Cert.Proof.Bridge

end
-- ==== Proof.lean ====
/-
  Chamfer distance: a Pallas kernel against its jnp reference, over the extended reals.

  The kernel runs one pallas_call twice. A call takes a set of query points and a set of key points, both
  [2, 8192, 3], and leaves for every query the minimum over all keys of the distance
  √ max(‖q‖² + ‖k‖² − 2⟨q, k⟩, 0): a grid of 8 query tiles by 16 key tiles, the running minimum carried in a scratch
  across a query tile's sixteen key tiles (reset to +∞ at the first, written out at the last). The first call has the
  second argument as queries, the second call the first; the host then averages the two outputs' row means. The
  reference forms the whole [2, 8192, 8192] matrix of distances and takes its minima along either axis, then the same
  averages.

  The frames (every weakly fair execution terminates, nothing faults, the arguments end as launched) come from one
  launch of the program's three items — call, call, host operations — with each call's scratch held, between grid
  points, at the running minimum; the same launch names every buffer's final contents, the result's among them. Over
  the extended reals a minimum is known by its lower bounds, which makes the sixteen tile minima one minimum over all
  keys, and + and · commute there, which makes the second call's output the reference's other minimum. Bfloat16
  casts are the identity there, and no named constant is involved: the idealization rewrote nothing.
-/
import proofs.«128316_j11218454577160_1_alg».proof.Defs
import proofs.«128316_j11218454577160_1_alg».proof.Proof.Gen.Kernel
import proofs.«128316_j11218454577160_1_alg».proof.Proof.Gen.KernelIdeal
import proofs.«128316_j11218454577160_1_alg».proof.Proof.Gen.ReferenceIdeal
import proofs.«128316_j11218454577160_1_alg».proof.Proof.Gen.Pre_finite_inputs
import proofs.«128316_j11218454577160_1_alg».proof.Proof.Kernel.Run
import proofs.«128316_j11218454577160_1_alg».proof.Proof.Bridge

noncomputable section

namespace Cert.Proof

open Idealize.ShloMosaic Idealize.ShloMosaic.TcCoe Idealize.SL.Sem

/-- The word-level kernel runs and leaves its arguments. -/
theorem frame_k : Cert.frame_Kernel := fun m ρ _ => Cert.Kernel.RowMin.frame m ρ

/-- So does its idealization. -/
theorem frame_ki : Cert.frame_KernelIdeal := fun m ρ _ => Cert.KernelIdeal.RowMin.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel's result buffer ends at
    the mean of row means of its two outputs, which are the reference's two minima. -/
theorem algebraic : Cert.algebraic_KernelIdeal_ReferenceIdeal := by
  intro m ρ m' ρ' _ hagree
  refine ⟨fun c => Cert.KernelIdeal.RowMin.B3 m c Cert.KernelIdeal.main_v10, ?_, ?_⟩
  · exact (θ_run Cert.KernelIdeal.defs _ _).mono (fun _ h c =>
      ⟨h c _ (Cert.KernelIdeal.RowMin.mem_uc Cert.KernelIdeal.main_v10 (by decide)),
        (h c _ (Cert.KernelIdeal.RowMin.mem_uc Cert.KernelIdeal.main_arg0 (by decide))).trans (Cert.KernelIdeal.RowMin.B3_arg0 m c),
        (h c _ (Cert.KernelIdeal.RowMin.mem_uc Cert.KernelIdeal.main_arg1 (by decide))).trans (Cert.KernelIdeal.RowMin.B3_arg1 m c)⟩)
      (Cert.KernelIdeal.RowMin.run_all m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v26_eq (F := Ideal) _ _).trans ?_
    rw [(hagree c).1, (hagree c).2]
    exact (Cert.Proof.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
